-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x4x4 : Shape := ⟨3, ![1048576, 4, 4]⟩
abbrev S1048576x3 : Shape := ⟨2, ![1048576, 3]⟩
abbrev S_ : Shape := ⟨0, ![]⟩

class Facts : Prop where
  bcast_S_S1048576x4x4 : S_.BroadcastsInDim S1048576x4x4 (![] : Fin 0 → Fin S1048576x4x4.rank)
  reducesTo_S1048576x4x4_S_d0_1_2 : S1048576x4x4.ReducesTo [0, 1, 2] S_
  h_S_ : 0 < S_.numel
  bcast_S_S1048576x3 : S_.BroadcastsInDim S1048576x3 (![] : Fin 0 → Fin S1048576x3.rank)
  reducesTo_S1048576x3_S_d0_1 : S1048576x3.ReducesTo [0, 1] S_

variable [Facts]

def fn {F : FTy → Type} [FloatOps F] (main_arg0 : FVec F S1048576x4x4 .f32) (main_arg1 : FVec F S1048576x3 .f32) (main_arg2 : FVec F S1048576x3 .f32) : IVec S_ 1 :=
  let main_v0 : FVec F S1048576x4x4 .f32 := Host.absf main_arg0
  let main_cst : FVec F S_ .f32 := constant S_ .f32 0x7F800000#32
  let main_v1 : FVec F S1048576x4x4 .f32 := broadcastInDim S1048576x4x4 ![] bcast_S_S1048576x4x4 main_cst
  let main_v2 : IVec S1048576x4x4 1 := cmpf .olt main_v0 main_v1
  let main_c : IVec S_ 1 := constantI S_ 1 1#1
  let main_v3 : IVec S_ 1 := (fun x v => Host.reduce IntOp.andi x v reducesTo_S1048576x4x4_S_d0_1_2 h_S_) main_v2 main_c
  let main_v4 : FVec F S1048576x3 .f32 := Host.absf main_arg1
  let main_cst_0 : FVec F S_ .f32 := constant S_ .f32 0x7F800000#32
  let main_v5 : FVec F S1048576x3 .f32 := broadcastInDim S1048576x3 ![] bcast_S_S1048576x3 main_cst_0
  let main_v6 : IVec S1048576x3 1 := cmpf .olt main_v4 main_v5
  let main_c_1 : IVec S_ 1 := constantI S_ 1 1#1
  let main_v7 : IVec S_ 1 := (fun x v => Host.reduce IntOp.andi x v reducesTo_S1048576x3_S_d0_1 h_S_) main_v6 main_c_1
  let main_v8 : IVec S_ 1 := andi main_v3 main_v7
  let main_v9 : FVec F S1048576x3 .f32 := Host.absf main_arg2
  let main_cst_2 : FVec F S_ .f32 := constant S_ .f32 0x7F800000#32
  let main_v10 : FVec F S1048576x3 .f32 := broadcastInDim S1048576x3 ![] bcast_S_S1048576x3 main_cst_2
  let main_v11 : IVec S1048576x3 1 := cmpf .olt main_v9 main_v10
  let main_c_3 : IVec S_ 1 := constantI S_ 1 1#1
  let main_v12 : IVec S_ 1 := (fun x v => Host.reduce IntOp.andi x v reducesTo_S1048576x3_S_d0_1 h_S_) main_v11 main_c_3
  let main_v13 : IVec S_ 1 := andi main_v8 main_v12
  main_v13
-- ==== Kernel.lean ====
abbrev S1048576x4x4 : Shape := ⟨3, ![1048576, 4, 4]⟩
abbrev S1048576x3 : Shape := ⟨2, ![1048576, 3]⟩
abbrev S16384x4x4 : Shape := ⟨3, ![16384, 4, 4]⟩
abbrev S16384x3 : Shape := ⟨2, ![16384, 3]⟩
abbrev S4x4x16384 : Shape := ⟨3, ![4, 4, 16384]⟩
abbrev S3x16384 : Shape := ⟨2, ![3, 16384]⟩
abbrev S1x16384 : Shape := ⟨2, ![1, 16384]⟩
abbrev S16384 : Shape := ⟨1, ![16384]⟩
abbrev S1x1x16384 : Shape := ⟨3, ![1, 1, 16384]⟩
abbrev S4x16384 : Shape := ⟨2, ![4, 16384]⟩
abbrev S1x4x16384 : Shape := ⟨3, ![1, 4, 16384]⟩

abbrev nBuf : Space → Nat
  | .hbm => 4
  | .vmem => 8
  | .smem => 0
  | _ => 0

abbrev bufTy : (tb : Table) → Fin (tcTables nBuf tb) → BufTy
  | .hbm, ⟨0, _⟩ => ⟨S1048576x4x4, .f32⟩
  | .hbm, ⟨1, _⟩ => ⟨S1048576x3, .f32⟩
  | .hbm, ⟨2, _⟩ => ⟨S1048576x3, .f32⟩
  | .hbm, ⟨3, _⟩ => ⟨S1048576x4x4, .f32⟩
  | .local _ .vmem, ⟨0, _⟩ => ⟨S16384x4x4, .f32⟩
  | .local _ .vmem, ⟨1, _⟩ => ⟨S16384x4x4, .f32⟩
  | .local _ .vmem, ⟨2, _⟩ => ⟨S16384x3, .f32⟩
  | .local _ .vmem, ⟨3, _⟩ => ⟨S16384x3, .f32⟩
  | .local _ .vmem, ⟨4, _⟩ => ⟨S16384x3, .f32⟩
  | .local _ .vmem, ⟨5, _⟩ => ⟨S16384x3, .f32⟩
  | .local _ .vmem, ⟨6, _⟩ => ⟨S16384x4x4, .f32⟩
  | .local _ .vmem, ⟨7, _⟩ => ⟨S16384x4x4, .f32⟩
  | _, _ => ⟨S1048576x4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16384x4x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16384x4x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S16384x4x4_S16384x4x4_0_0_0 : ∀ a, (![0, 0, 0] : Fin 3 → Nat) a + S16384x4x4.size a ≤ S16384x4x4.size a
  h_S16384x4x4 : 0 < S16384x4x4.numel
  inb_S16384x3_S16384x3_0_0 : ∀ a, (![0, 0] : Fin 2 → Nat) a + S16384x3.size a ≤ S16384x3.size a
  h_S16384x3 : 0 < S16384x3.numel
  transposes_S16384x4x4_p1_2_0_S4x4x16384 : S16384x4x4.Transposes [1, 2, 0] S4x4x16384
  transposes_S16384x3_p1_0_S3x16384 : S16384x3.Transposes [1, 0] S3x16384
  slices_S3x16384_o0_0_S1x16384 : S3x16384.Slices ![0, 0] S1x16384
  shapeCasts_S1x16384_S16384 : S1x16384.ShapeCasts S16384
  slices_S3x16384_o1_0_S1x16384 : S3x16384.Slices ![1, 0] S1x16384
  slices_S3x16384_o2_0_S1x16384 : S3x16384.Slices ![2, 0] S1x16384
  slices_S4x4x16384_o0_0_0_S1x1x16384 : S4x4x16384.Slices ![0, 0, 0] S1x1x16384
  shapeCasts_S1x1x16384_S16384 : S1x1x16384.ShapeCasts S16384
  slices_S4x4x16384_o1_0_0_S1x1x16384 : S4x4x16384.Slices ![1, 0, 0] S1x1x16384
  slices_S4x4x16384_o2_0_0_S1x1x16384 : S4x4x16384.Slices ![2, 0, 0] S1x1x16384
  slices_S4x4x16384_o3_0_0_S1x1x16384 : S4x4x16384.Slices ![3, 0, 0] S1x1x16384
  slices_S4x4x16384_o0_1_0_S1x1x16384 : S4x4x16384.Slices ![0, 1, 0] S1x1x16384
  slices_S4x4x16384_o1_1_0_S1x1x16384 : S4x4x16384.Slices ![1, 1, 0] S1x1x16384
  slices_S4x4x16384_o2_1_0_S1x1x16384 : S4x4x16384.Slices ![2, 1, 0] S1x1x16384
  slices_S4x4x16384_o3_1_0_S1x1x16384 : S4x4x16384.Slices ![3, 1, 0] S1x1x16384
  slices_S4x4x16384_o0_2_0_S1x1x16384 : S4x4x16384.Slices ![0, 2, 0] S1x1x16384
  slices_S4x4x16384_o1_2_0_S1x1x16384 : S4x4x16384.Slices ![1, 2, 0] S1x1x16384
  slices_S4x4x16384_o2_2_0_S1x1x16384 : S4x4x16384.Slices ![2, 2, 0] S1x1x16384
  slices_S4x4x16384_o3_2_0_S1x1x16384 : S4x4x16384.Slices ![3, 2, 0] S1x1x16384
  slices_S4x4x16384_o0_3_0_S1x1x16384 : S4x4x16384.Slices ![0, 3, 0] S1x1x16384
  slices_S4x4x16384_o1_3_0_S1x1x16384 : S4x4x16384.Slices ![1, 3, 0] S1x1x16384
  slices_S4x4x16384_o2_3_0_S1x1x16384 : S4x4x16384.Slices ![2, 3, 0] S1x1x16384
  slices_S4x4x16384_o3_3_0_S1x1x16384 : S4x4x16384.Slices ![3, 3, 0] S1x1x16384
  shapeCasts_S16384_S1x16384 : S16384.ShapeCasts S1x16384
  concatenates_S1x16384_S1x16384_S1x16384_S1x16384_S4x16384_d0 : Shape.Concatenates [S1x16384, S1x16384, S1x16384, S1x16384] S4x16384 0
  shapeCasts_S4x16384_S1x4x16384 : S4x16384.ShapeCasts S1x4x16384
  concatenates_S1x4x16384_S1x4x16384_S1x4x16384_S1x4x16384_S4x4x16384_d0 : Shape.Concatenates [S1x4x16384, S1x4x16384, S1x4x16384, S1x4x16384] S4x4x16384 0
  transposes_S4x4x16384_p2_0_1_S16384x4x4 : S4x4x16384.Transposes [2, 0, 1] S16384x4x4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x4x4.size a ≤ S1048576x4x4.size a
  hwx0_0 : ∀ i : grid0.Coords, EltTy.bits .f32 = 32 ∨ (Rect.block (s := S1048576x4x4) S16384x4x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x3.size a ≤ S1048576x3.size a
  hwx0_1 : ∀ i : grid0.Coords, EltTy.bits .f32 = 32 ∨ (Rect.block (s := S1048576x3) S16384x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x3.size a ≤ S1048576x3.size a
  hwx0_2 : ∀ i : grid0.Coords, EltTy.bits .f32 = 32 ∨ (Rect.block (s := S1048576x3) S16384x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16384x4x4.size a ≤ S1048576x4x4.size a
  hwx0_3 : ∀ i : grid0.Coords, EltTy.bits .f32 = 32 ∨ (Rect.block (s := S1048576x4x4) S16384x4x4.size (cc0_transform_3 i) (hinb0_3 i)).WholeWords (EltTy.packing .f32)

variable [Facts₀]

abbrev win0_0 : Pipeline.Window sig grid0 :=
  Pipeline.Window.ofSpec (Memref.whole main_arg0) S16384x4x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16384x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S16384x4x4.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576x4x4 : Shape := ⟨3, ![1048576, 4, 4]⟩
abbrev S1048576x3 : Shape := ⟨2, ![1048576, 3]⟩
abbrev S4 : Shape := ⟨1, ![4]⟩
abbrev S1048576x1 : Shape := ⟨2, ![1048576, 1]⟩
abbrev S1048576 : Shape := ⟨1, ![1048576]⟩
abbrev S_ : Shape := ⟨0, ![]⟩
abbrev S1048576x1x3 : Shape := ⟨3, ![1048576, 1, 3]⟩
abbrev S1048576x3x3 : Shape := ⟨3, ![1048576, 3, 3]⟩
abbrev S1048576x1x1 : Shape := ⟨3, ![1048576, 1, 1]⟩
abbrev S3x3 : Shape := ⟨2, ![3, 3]⟩
abbrev S1x3x3 : Shape := ⟨3, ![1, 3, 3]⟩
abbrev S1048576x3x1 : Shape := ⟨3, ![1048576, 3, 1]⟩
abbrev S1048576x3x4 : Shape := ⟨3, ![1048576, 3, 4]⟩
abbrev S1x1x4 : Shape := ⟨3, ![1, 1, 4]⟩
abbrev S1048576x1x4 : Shape := ⟨3, ![1048576, 1, 4]⟩

abbrev nBuf : Space → Nat
  | .hbm => 71
  | .vmem => 0
  | .smem => 0
  | _ => 0

abbrev bufTy : (tb : Table) → Fin (tcTables nBuf tb) → BufTy
  | .hbm, ⟨0, _⟩ => ⟨S1048576x4x4, .f32⟩
  | .hbm, ⟨1, _⟩ => ⟨S1048576x3, .f32⟩
  | .hbm, ⟨2, _⟩ => ⟨S1048576x3, .f32⟩
  | .hbm, ⟨3, _⟩ => ⟨S4, .f32⟩
  | .hbm, ⟨4, _⟩ => ⟨S1048576x1, .f32⟩
  | .hbm, ⟨5, _⟩ => ⟨S1048576, .f32⟩
  | .hbm, ⟨6, _⟩ => ⟨S_, .f32⟩
  | .hbm, ⟨7, _⟩ => ⟨S1048576, .f32⟩
  | .hbm, ⟨8, _⟩ => ⟨S1048576x1, .f32⟩
  | .hbm, ⟨9, _⟩ => ⟨S1048576, .f32⟩
  | .hbm, ⟨10, _⟩ => ⟨S1048576x1, .f32⟩
  | .hbm, ⟨11, _⟩ => ⟨S1048576, .f32⟩
  | .hbm, ⟨12, _⟩ => ⟨S1048576x1, .f32⟩
  | .hbm, ⟨13, _⟩ => ⟨S1048576, .f32⟩
  | .hbm, ⟨14, _⟩ => ⟨S1048576, .f32⟩
  | .hbm, ⟨15, _⟩ => ⟨S1048576x1, .f32⟩
  | .hbm, ⟨16, _⟩ => ⟨S1048576x1, .f32⟩
  | .hbm, ⟨17, _⟩ => ⟨S1048576x1, .f32⟩
  | .hbm, ⟨18, _⟩ => ⟨S1048576x3, .f32⟩
  | .hbm, ⟨19, _⟩ => ⟨S1048576, .f32⟩
  | .hbm, ⟨20, _⟩ => ⟨S1048576x1, .f32⟩
  | .hbm, ⟨21, _⟩ => ⟨S1048576x1, .f32⟩
  | .hbm, ⟨22, _⟩ => ⟨S1048576x1, .f32⟩
  | .hbm, ⟨23, _⟩ => ⟨S1048576x3, .f32⟩
  | .hbm, ⟨24, _⟩ => ⟨S1048576, .f32⟩
  | .hbm, ⟨25, _⟩ => ⟨S1048576x1, .f32⟩
  | .hbm, ⟨26, _⟩ => ⟨S1048576x1, .f32⟩
  | .hbm, ⟨27, _⟩ => ⟨S1048576x1, .f32⟩
  | .hbm, ⟨28, _⟩ => ⟨S1048576x3, .f32⟩
  | .hbm, ⟨29, _⟩ => ⟨S1048576x1x3, .f32⟩
  | .hbm, ⟨30, _⟩ => ⟨S1048576x1x3, .f32⟩
  | .hbm, ⟨31, _⟩ => ⟨S1048576x1x3, .f32⟩
  | .hbm, ⟨32, _⟩ => ⟨S1048576x3x3, .f32⟩
  | .hbm, ⟨33, _⟩ => ⟨S1048576x3, .f32⟩
  | .hbm, ⟨34, _⟩ => ⟨S_, .f32⟩
  | .hbm, ⟨35, _⟩ => ⟨S1048576, .f32⟩
  | .hbm, ⟨36, _⟩ => ⟨S1048576, .f32⟩
  | .hbm, ⟨37, _⟩ => ⟨S_, .f32⟩
  | .hbm, ⟨38, _⟩ => ⟨S1048576, .f32⟩
  | .hbm, ⟨39, _⟩ => ⟨S1048576, .f32⟩
  | .hbm, ⟨40, _⟩ => ⟨S1048576x1x1, .f32⟩
  | .hbm, ⟨41, _⟩ => ⟨S3x3, .i32⟩
  | .hbm, ⟨42, _⟩ => ⟨S3x3, .i32⟩
  | .hbm, ⟨43, _⟩ => ⟨S_, .i32⟩
  | .hbm, ⟨44, _⟩ => ⟨S3x3, .i32⟩
  | .hbm, ⟨45, _⟩ => ⟨S3x3, .i32⟩
  | .hbm, ⟨46, _⟩ => ⟨S3x3, .i1⟩
  | .hbm, ⟨47, _⟩ => ⟨S3x3, .f32⟩
  | .hbm, ⟨48, _⟩ => ⟨S1048576x3x3, .f32⟩
  | .hbm, ⟨49, _⟩ => ⟨S1048576x1x1, .f32⟩
  | .hbm, ⟨50, _⟩ => ⟨S1048576x1x1, .f32⟩
  | .hbm, ⟨51, _⟩ => ⟨S1048576x3x3, .f32⟩
  | .hbm, ⟨52, _⟩ => ⟨S1048576x3x3, .f32⟩
  | .hbm, ⟨53, _⟩ => ⟨S1x3x3, .f32⟩
  | .hbm, ⟨54, _⟩ => ⟨S1048576x3x3, .f32⟩
  | .hbm, ⟨55, _⟩ => ⟨S1048576x3x3, .f32⟩
  | .hbm, ⟨56, _⟩ => ⟨S1048576x1x1, .f32⟩
  | .hbm, ⟨57, _⟩ => ⟨S_, .f32⟩
  | .hbm, ⟨58, _⟩ => ⟨S1048576x1x1, .f32⟩
  | .hbm, ⟨59, _⟩ => ⟨S1048576x1x1, .f32⟩
  | .hbm, ⟨60, _⟩ => ⟨S1048576x1x1, .f32⟩
  | .hbm, ⟨61, _⟩ => ⟨S1048576x1x1, .f32⟩
  | .hbm, ⟨62, _⟩ => ⟨S1048576x3x3, .f32⟩
  | .hbm, ⟨63, _⟩ => ⟨S1048576x3x3, .f32⟩
  | .hbm, ⟨64, _⟩ => ⟨S1048576x3x3, .f32⟩
  | .hbm, ⟨65, _⟩ => ⟨S1048576x3x1, .f32⟩
  | .hbm, ⟨66, _⟩ => ⟨S1048576x3x4, .f32⟩
  | .hbm, ⟨67, _⟩ => ⟨S1x1x4, .f32⟩
  | .hbm, ⟨68, _⟩ => ⟨S1048576x1x4, .f32⟩
  | .hbm, ⟨69, _⟩ => ⟨S1048576x4x4, .f32⟩
  | .hbm, ⟨70, _⟩ => ⟨S1048576x4x4, .f32⟩
  | _, _ => ⟨S1048576x4x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_call0_v0 : Ref sig .tc := ⟨.hbm, 33, rfl⟩
abbrev main_call0_cst : Ref sig .tc := ⟨.hbm, 34, rfl⟩
abbrev main_call0_v1 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_2 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩

abbrev nD : Nat := 1
abbrev τ : Topo := Topo.v7x

variable {F : FTy → Type} [FloatOps F]

class Facts₀ : Prop where
  slices_S1048576x3_S1048576x1_0_0 : S1048576x3.Slices ![0, 0] S1048576x1
  shapeCasts_S1048576x1_S1048576 : S1048576x1.ShapeCasts S1048576
  bcast_S_S1048576 : S_.BroadcastsInDim S1048576 (![] : Fin 0 → Fin S1048576.rank)
  slices_S1048576x3_S1048576x1_0_1 : S1048576x3.Slices ![0, 1] S1048576x1
  slices_S1048576x3_S1048576x1_0_2 : S1048576x3.Slices ![0, 2] S1048576x1
  bcast_S1048576_S1048576x1_0 : S1048576.BroadcastsInDim S1048576x1 (![0] : Fin 1 → Fin S1048576x1.rank)
  concatenates_S1048576x1_S1048576x1_S1048576x1_S1048576x3_d1 : Shape.Concatenates [S1048576x1, S1048576x1, S1048576x1] S1048576x3 1
  bcast_S1048576x3_S1048576x1x3_0_2 : S1048576x3.BroadcastsInDim S1048576x1x3 (![0, 2] : Fin 2 → Fin S1048576x1x3.rank)
  concatenates_S1048576x1x3_S1048576x1x3_S1048576x1x3_S1048576x3x3_d1 : Shape.Concatenates [S1048576x1x3, S1048576x1x3, S1048576x1x3] S1048576x3x3 1
  reducesTo_S1048576x3_S1048576_d1 : S1048576x3.ReducesTo [1] S1048576
  h_S_ : 0 < S_.numel
  bcast_S1048576_S1048576x1x1_0 : S1048576.BroadcastsInDim S1048576x1x1 (![0] : Fin 1 → Fin S1048576x1x1.rank)
  bcast_S_S3x3 : S_.BroadcastsInDim S3x3 (![] : Fin 0 → Fin S3x3.rank)
  bcast_S1048576x1x1_S1048576x3x3_0_1_2 : S1048576x1x1.BroadcastsInDim S1048576x3x3 (![0, 1, 2] : Fin 3 → Fin S1048576x3x3.rank)
  bcast_S3x3_S1x3x3_1_2 : S3x3.BroadcastsInDim S1x3x3 (![1, 2] : Fin 2 → Fin S1x3x3.rank)
  bcast_S1x3x3_S1048576x3x3_0_1_2 : S1x3x3.BroadcastsInDim S1048576x3x3 (![0, 1, 2] : Fin 3 → Fin S1048576x3x3.rank)
  bcast_S_S1048576x1x1 : S_.BroadcastsInDim S1048576x1x1 (![] : Fin 0 → Fin S1048576x1x1.rank)
  bcast_S1048576x3_S1048576x3x1_0_1 : S1048576x3.BroadcastsInDim S1048576x3x1 (![0, 1] : Fin 2 → Fin S1048576x3x1.rank)
  concatenates_S1048576x3x3_S1048576x3x1_S1048576x3x4_d2 : Shape.Concatenates [S1048576x3x3, S1048576x3x1] S1048576x3x4 2
  bcast_S4_S1x1x4_2 : S4.BroadcastsInDim S1x1x4 (![2] : Fin 1 → Fin S1x1x4.rank)
  bcast_S1x1x4_S1048576x1x4_0_1_2 : S1x1x4.BroadcastsInDim S1048576x1x4 (![0, 1, 2] : Fin 3 → Fin S1048576x1x4.rank)
  concatenates_S1048576x3x4_S1048576x1x4_S1048576x4x4_d1 : Shape.Concatenates [S1048576x3x4, S1048576x1x4] S1048576x4x4 1
  dot_S1048576x3x3_S1048576x3x3_S1048576x3x3_2_1_1_2_0_0_wf : DotDims.WF S1048576x3x3 S1048576x3x3 S1048576x3x3 [2] [1] [1] [2] [0] [0]
  dot_S1048576x4x4_S1048576x4x4_S1048576x4x4_2_1_1_2_0_0_wf : DotDims.WF S1048576x4x4 S1048576x4x4 S1048576x4x4 [2] [1] [1] [2] [0] [0]

variable [Facts₀]

def dot_S1048576x3x3_S1048576x3x3_S1048576x3x3_2_1_1_2_0_0 : DotDims S1048576x3x3 S1048576x3x3 S1048576x3x3 where
  lhsContracting := [2]
  rhsContracting := [1]
  lhsNonContracting := [1]
  rhsNonContracting := [2]
  lhsBatch := [0]
  rhsBatch := [0]
  wf := dot_S1048576x3x3_S1048576x3x3_S1048576x3x3_2_1_1_2_0_0_wf
def dot_S1048576x4x4_S1048576x4x4_S1048576x4x4_2_1_1_2_0_0 : DotDims S1048576x4x4 S1048576x4x4 S1048576x4x4 where
  lhsContracting := [2]
  rhsContracting := [1]
  lhsNonContracting := [1]
  rhsNonContracting := [2]
  lhsBatch := [0]
  rhsBatch := [0]
  wf := dot_S1048576x4x4_S1048576x4x4_S1048576x4x4_2_1_1_2_0_0_wf

class Facts : Prop extends Facts₀ where

variable [Facts]
-- ==== Proof.Spec.lean ====
/-
  The camera-pose product, one entry at a time, on the extended reals.

  A row of the batch carries an axis-angle vector r = (r₀, r₁, r₂), a translation t and a 4×4 pose matrix p.
  With s = |r|², θ = √s + ε, a = sin θ / θ and b = (1 − cos θ) / θ², Rodrigues' formula gives the rotation
  R = I + a·K + b·K², K the skew matrix of r.  The camera matrix is [R | t; 0 0 0 1] and the result its
  product with p.

  Two spellings of that entry are stated here.  `outK` uses the closed form K² = r rᵀ − s·I and adds the four
  products of a row from the left; `outR` forms K, squares it as a 3-term sum, adds I + a·K + b·K² in that
  order, and contracts over `Fin 4`.  They are one function where r is finite (Proof/Algebra.lean).
-/
import Idealize.ShloMosaic.PureOps.Ideal
import Mathlib.Algebra.BigOperators.Fin

noncomputable section

namespace Cert.Pose

open Idealize.ShloMosaic

/-- The literal `1.0`. -/
abbrev one : EReal := Ideal.ofBits .f32 0x3F800000#32
/-- The literal `0.0`. -/
abbrev zero : EReal := Ideal.ofBits .f32 0x00000000#32
/-- The guard added to the angle, the literal `1e-15`. -/
abbrev eps : EReal := Ideal.ofBits .f32 0x26901D7D#32

/-- The angle θ = √s + ε from the squared length s. -/
def angle (s : EReal) : EReal := Ideal.sqrt s + eps
/-- a = sin θ / θ. -/
def sinc (θ : EReal) : EReal := Ideal.div (Ideal.sin θ) θ
/-- b = (1 − cos θ) / θ². -/
def cosc (θ : EReal) : EReal := Ideal.div (one - Ideal.cos θ) (θ * θ)

/-! ## The closed form -/

/-- |r|², the three squares added from the left. -/
def lenSqK (r : Fin 3 → EReal) : EReal := r 0 * r 0 + r 1 * r 1 + r 2 * r 2

/-- The camera matrix with K² written as r rᵀ − |r|² I. -/
def camK (r t : Fin 3 → EReal) : Fin 4 → Fin 4 → EReal :=
  ![![one + cosc (angle (lenSqK r)) * (r 0 * r 0 - lenSqK r),
      sinc (angle (lenSqK r)) * (zero - r 2) + cosc (angle (lenSqK r)) * (r 0 * r 1),
      sinc (angle (lenSqK r)) * r 1 + cosc (angle (lenSqK r)) * (r 0 * r 2),
      t 0],
    ![sinc (angle (lenSqK r)) * r 2 + cosc (angle (lenSqK r)) * (r 0 * r 1),
      one + cosc (angle (lenSqK r)) * (r 1 * r 1 - lenSqK r),
      sinc (angle (lenSqK r)) * (zero - r 0) + cosc (angle (lenSqK r)) * (r 1 * r 2),
      t 1],
    ![sinc (angle (lenSqK r)) * (zero - r 1) + cosc (angle (lenSqK r)) * (r 0 * r 2),
      sinc (angle (lenSqK r)) * r 0 + cosc (angle (lenSqK r)) * (r 1 * r 2),
      one + cosc (angle (lenSqK r)) * (r 2 * r 2 - lenSqK r),
      t 2],
    ![zero, zero, zero, one]]

/-- Entry (i, k) of the product, the four terms of row i added from the left. -/
def outK (r t : Fin 3 → EReal) (p : Fin 4 → Fin 4 → EReal) (i k : Fin 4) : EReal :=
  camK r t i 0 * p 0 k + camK r t i 1 * p 1 k + camK r t i 2 * p 2 k + camK r t i 3 * p 3 k

/-! ## Rodrigues' formula term by term -/

/-- The skew matrix of r. -/
def skew (r : Fin 3 → EReal) : Fin 3 → Fin 3 → EReal :=
  ![![zero, -r 2, r 1], ![r 2, zero, -r 0], ![-r 1, r 0, zero]]

/-- |r|² as a sum over the three coordinates from the literal zero. -/
def lenSqR (r : Fin 3 → EReal) : EReal := zero + ∑ j : Fin 3, r j * r j

/-- The 3×3 identity. -/
def eye (i j : Fin 3) : EReal := if i = j then 1 else 0

/-- K², each entry a 3-term sum. -/
def skewSq (r : Fin 3 → EReal) (i j : Fin 3) : EReal := ∑ l : Fin 3, skew r i l * skew r l j

/-- R = (I + a·K) + b·K². -/
def rotR (r : Fin 3 → EReal) (i j : Fin 3) : EReal :=
  (eye i j + sinc (angle (lenSqR r)) * skew r i j) + cosc (angle (lenSqR r)) * skewSq r i j

/-- The bottom row (0, 0, 0, 1) as literals. -/
def bottomRow : Fin 4 → EReal := ![zero, zero, zero, one]

/-- The camera matrix [R | t; bottom row]: rows and columns below 3 are R, column 3 is t, row 3 the literals. -/
def camR (r t : Fin 3 → EReal) (i j : Fin 4) : EReal :=
  if hi : i.val < 3 then (if hj : j.val < 3 then rotR r ⟨i.val, hi⟩ ⟨j.val, hj⟩ else t ⟨i.val, hi⟩) else bottomRow j

/-- Entry (i, k) of the product as a sum over the contracted index. -/
def outR (r t : Fin 3 → EReal) (p : Fin 4 → Fin 4 → EReal) (i k : Fin 4) : EReal :=
  ∑ j : Fin 4, camR r t i j * p j k

end Cert.Pose

end
-- ==== Proof.KernelBody.lean ====
/-
  What the kernel body leaves in its output block, entry by entry, at the ideal instance.

  The body moves the row number n of its three blocks to the last axis (poses [N,4,4] → [4,4,N]; r, t [N,3] → [3,N]),
  cuts out the length-N vectors r₀ r₁ r₂ t₀ t₁ t₂ and the sixteen poses[·, j, k], and computes pointwise:
  s = (r₀² + r₁²) + r₂², θ = √s + ε, a = sin θ / θ, b = (1 − cos θ) / θ², then the entries of the camera matrix
  [I + a·K + b·(r rᵀ − s·I) | t; 0 0 0 1], then each output entry as
  ((c_i0 · p_0k + c_i1 · p_1k) + c_i2 · p_2k) + c_i3 · p_3k. Four such vectors are stacked as the rows of a [4,N] array,
  four of those as a [4,4,N] stack, and the stack is transposed back to [N,4,4].

  Read at (n, i, k), the stored block is therefore entry (i, k) of the spec's closed form `Cert.Pose.outK` on row n's
  r, t and pose. The proof reads each layout operation at an index (a transpose permutes coordinates, a unit-size cut
  shifts them by its offsets, a flattening or an added unit axis keeps the row-major position, a stacking reads the
  piece the axis coordinate names), reads each pointwise payload at n (at the ideal instance an elementwise operation
  at an index is the extended reals' operation on the elements), and closes the sixteen (i, k) cases by unfolding
  the spec's entry.
-/
import proofs.«146500_j21268678050229_1_alg».proof.Proof.Gen.KernelIdeal.Frame
import proofs.«146500_j21268678050229_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PoseBody
open Cert.KernelIdeal Cert.KernelIdeal.Gen Idealize.ShloMosaic Idealize.ShloMosaic.ValueIdx

/-! ## Layout operations of the body, read at an index -/

section Layout
variable {α : Type}

/-- The [N,3] block transposed to [3,N] reads, at (c, n), the block at (n, c). -/
theorem tr10_apply (x : S16384x3.Idx → α) (h : S16384x3.Transposes [1, 0] S3x16384) (c : Fin 3) (n : Fin 16384) :
    transpose S3x16384 [1, 0] x h (ix2 c n) = x (ix2 n c) :=
  transpose_ix2_apply x h c n

/-- The [N,4,4] block with its row axis moved last reads, at (a, b, n), the block at (n, a, b). -/
theorem tr120_apply (x : S16384x4x4.Idx → α) (h : S16384x4x4.Transposes [1, 2, 0] S4x4x16384) (a b : Fin 4) (n : Fin 16384) :
    transpose S4x4x16384 [1, 2, 0] x h (ix3 a b n) = x (ix3 n a b) :=
  transpose_apply _ x h _ _ fun c => match c with | ⟨0, _⟩ => rfl | ⟨1, _⟩ => rfl | ⟨2, _⟩ => rfl

/-- The [4,4,N] stack with its row axis moved first reads, at (n, i, k), the stack at (i, k, n). -/
theorem tr201_apply (x : S4x4x16384.Idx → α) (h : S4x4x16384.Transposes [2, 0, 1] S16384x4x4) (n : Fin 16384) (i k : Fin 4) :
    transpose S16384x4x4 [2, 0, 1] x h (ix3 n i k) = x (ix3 i k n) :=
  transpose_apply _ x h _ _ fun c => match c with | ⟨0, _⟩ => rfl | ⟨1, _⟩ => rfl | ⟨2, _⟩ => rfl

/-- Row `c` of a [3,N] array, cut out as [1,N] and flattened to [N], reads at n the array at (c, n). -/
theorem row3_apply (o : Nat) (x : S3x16384.Idx → α) (h : S3x16384.Slices ![o, 0] S1x16384)
    (h' : S1x16384.ShapeCasts S16384) (c : Fin 3) (hc : c.val = o) (n : Fin 16384) :
    shapeCast S16384 (extractStridedSlice S1x16384 ![o, 0] x h) h' (ix1 n) = x (ix2 c n) :=
  (shapeCast_1a_a_apply _ h' n).trans (slice2_axis0_apply o x h (0 : Fin 1) n c (by rw [hc]; rfl))

/-- The [1,1,N] cell at (a, b) of a [4,4,N] stack reads, at (0, 0, n), the stack at (a, b, n). -/
theorem cell_apply (oa ob : Nat) (x : S4x4x16384.Idx → α) (h : S4x4x16384.Slices ![oa, ob, 0] S1x1x16384)
    (a b : Fin 4) (ha : a.val = oa) (hb : b.val = ob) (u u' : Fin 1) (n : Fin 16384) :
    extractStridedSlice S1x1x16384 ![oa, ob, 0] x h (ix3 u u' n) = x (ix3 a b n) :=
  extractStridedSlice_apply _ x h _ _ fun ax => by
    match ax with
    | ⟨0, _⟩ => show a.val = oa + u.val; omega
    | ⟨1, _⟩ => show b.val = ob + u'.val; omega
    | ⟨2, _⟩ => show n.val = 0 + n.val; omega

/-- A [1,1,N] array flattened to [N] reads, at n, the array at (0, 0, n). -/
theorem flat11_apply (x : S1x1x16384.Idx → α) (h : S1x1x16384.ShapeCasts S16384) (n : Fin 16384) :
    shapeCast S16384 x h (ix1 n) = x (ix3 (0 : Fin 1) (0 : Fin 1) n) :=
  shapeCast_apply x h _ _ (by
    rw [Shape.rowMajor_val_three, Shape.rowMajor_val_one]
    show (0 * 1 + 0) * 16384 + n.val = n.val
    omega)

/-- The cell at (a, b) of a [4,4,N] stack, flattened to [N], reads at n the stack at (a, b, n). -/
theorem cellFlat_apply (oa ob : Nat) (x : S4x4x16384.Idx → α) (h : S4x4x16384.Slices ![oa, ob, 0] S1x1x16384)
    (h' : S1x1x16384.ShapeCasts S16384) (a b : Fin 4) (ha : a.val = oa) (hb : b.val = ob) (n : Fin 16384) :
    shapeCast S16384 (extractStridedSlice S1x1x16384 ![oa, ob, 0] x h) h' (ix1 n) = x (ix3 a b n) :=
  (flat11_apply _ h' n).trans (cell_apply oa ob x h a b ha hb 0 0 n)

end Layout

/-! ## The two stackings of the body, read at an index -/

section Stack
variable {α : Type}

/-- Four [N] vectors, each viewed [1,N], laid along axis 0 as a [4,N] array: row 0 at n is the first vector at n. -/
theorem rows4_apply_0 (w0 w1 w2 w3 : S16384.Idx → α) (hc : S16384.ShapeCasts S1x16384)
    (h : Shape.Concatenates [S1x16384, S1x16384, S1x16384, S1x16384] S4x16384 0) (n : Fin 16384) :
    concatenate S4x16384 0 [⟨S1x16384, shapeCast S1x16384 w0 hc⟩, ⟨S1x16384, shapeCast S1x16384 w1 hc⟩,
      ⟨S1x16384, shapeCast S1x16384 w2 hc⟩, ⟨S1x16384, shapeCast S1x16384 w3 hc⟩] h (ix2 (0 : Fin 4) n) = w0 (ix1 n) := by
  refine (concatenate_apply_piece (t := S4x16384) (0 : Fin 2)
    [⟨S1x16384, shapeCast S1x16384 w0 hc⟩, ⟨S1x16384, shapeCast S1x16384 w1 hc⟩,
      ⟨S1x16384, shapeCast S1x16384 w2 hc⟩, ⟨S1x16384, shapeCast S1x16384 w3 hc⟩] h (ix2 (0 : Fin 4) n) 0 (by show (0 : Nat) < 4; omega)
    S1x16384 (shapeCast S1x16384 w0 hc) rfl rfl 0 rfl (ix2 (0 : Fin 1) n) (fun b hb => ?_) rfl).trans
    (shapeCast_a_1a_apply w0 hc 0 n)
  match b with
  | ⟨0, _⟩ => exact absurd rfl hb
  | ⟨1, _⟩ => rfl

/-- Four [N] vectors, each viewed [1,N], laid along axis 0 as a [4,N] array: row 1 at n is the second vector at n. -/
theorem rows4_apply_1 (w0 w1 w2 w3 : S16384.Idx → α) (hc : S16384.ShapeCasts S1x16384)
    (h : Shape.Concatenates [S1x16384, S1x16384, S1x16384, S1x16384] S4x16384 0) (n : Fin 16384) :
    concatenate S4x16384 0 [⟨S1x16384, shapeCast S1x16384 w0 hc⟩, ⟨S1x16384, shapeCast S1x16384 w1 hc⟩,
      ⟨S1x16384, shapeCast S1x16384 w2 hc⟩, ⟨S1x16384, shapeCast S1x16384 w3 hc⟩] h (ix2 (1 : Fin 4) n) = w1 (ix1 n) := by
  refine (concatenate_apply_piece (t := S4x16384) (0 : Fin 2)
    [⟨S1x16384, shapeCast S1x16384 w0 hc⟩, ⟨S1x16384, shapeCast S1x16384 w1 hc⟩,
      ⟨S1x16384, shapeCast S1x16384 w2 hc⟩, ⟨S1x16384, shapeCast S1x16384 w3 hc⟩] h (ix2 (1 : Fin 4) n) 1 (by show (1 : Nat) < 4; omega)
    S1x16384 (shapeCast S1x16384 w1 hc) rfl rfl 1 rfl (ix2 (0 : Fin 1) n) (fun b hb => ?_) rfl).trans
    (shapeCast_a_1a_apply w1 hc 0 n)
  match b with
  | ⟨0, _⟩ => exact absurd rfl hb
  | ⟨1, _⟩ => rfl

/-- Four [N] vectors, each viewed [1,N], laid along axis 0 as a [4,N] array: row 2 at n is the third vector at n. -/
theorem rows4_apply_2 (w0 w1 w2 w3 : S16384.Idx → α) (hc : S16384.ShapeCasts S1x16384)
    (h : Shape.Concatenates [S1x16384, S1x16384, S1x16384, S1x16384] S4x16384 0) (n : Fin 16384) :
    concatenate S4x16384 0 [⟨S1x16384, shapeCast S1x16384 w0 hc⟩, ⟨S1x16384, shapeCast S1x16384 w1 hc⟩,
      ⟨S1x16384, shapeCast S1x16384 w2 hc⟩, ⟨S1x16384, shapeCast S1x16384 w3 hc⟩] h (ix2 (2 : Fin 4) n) = w2 (ix1 n) := by
  refine (concatenate_apply_piece (t := S4x16384) (0 : Fin 2)
    [⟨S1x16384, shapeCast S1x16384 w0 hc⟩, ⟨S1x16384, shapeCast S1x16384 w1 hc⟩,
      ⟨S1x16384, shapeCast S1x16384 w2 hc⟩, ⟨S1x16384, shapeCast S1x16384 w3 hc⟩] h (ix2 (2 : Fin 4) n) 2 (by show (2 : Nat) < 4; omega)
    S1x16384 (shapeCast S1x16384 w2 hc) rfl rfl 2 rfl (ix2 (0 : Fin 1) n) (fun b hb => ?_) rfl).trans
    (shapeCast_a_1a_apply w2 hc 0 n)
  match b with
  | ⟨0, _⟩ => exact absurd rfl hb
  | ⟨1, _⟩ => rfl

/-- Four [N] vectors, each viewed [1,N], laid along axis 0 as a [4,N] array: row 3 at n is the fourth vector at n. -/
theorem rows4_apply_3 (w0 w1 w2 w3 : S16384.Idx → α) (hc : S16384.ShapeCasts S1x16384)
    (h : Shape.Concatenates [S1x16384, S1x16384, S1x16384, S1x16384] S4x16384 0) (n : Fin 16384) :
    concatenate S4x16384 0 [⟨S1x16384, shapeCast S1x16384 w0 hc⟩, ⟨S1x16384, shapeCast S1x16384 w1 hc⟩,
      ⟨S1x16384, shapeCast S1x16384 w2 hc⟩, ⟨S1x16384, shapeCast S1x16384 w3 hc⟩] h (ix2 (3 : Fin 4) n) = w3 (ix1 n) := by
  refine (concatenate_apply_piece (t := S4x16384) (0 : Fin 2)
    [⟨S1x16384, shapeCast S1x16384 w0 hc⟩, ⟨S1x16384, shapeCast S1x16384 w1 hc⟩,
      ⟨S1x16384, shapeCast S1x16384 w2 hc⟩, ⟨S1x16384, shapeCast S1x16384 w3 hc⟩] h (ix2 (3 : Fin 4) n) 3 (by show (3 : Nat) < 4; omega)
    S1x16384 (shapeCast S1x16384 w3 hc) rfl rfl 3 rfl (ix2 (0 : Fin 1) n) (fun b hb => ?_) rfl).trans
    (shapeCast_a_1a_apply w3 hc 0 n)
  match b with
  | ⟨0, _⟩ => exact absurd rfl hb
  | ⟨1, _⟩ => rfl

/-- Four [4,N] arrays, each viewed [1,4,N], laid along axis 0 as a [4,4,N] stack: at (0, k, n) it is the first array at (k, n). -/
theorem stack4_apply_0 (m0 m1 m2 m3 : S4x16384.Idx → α) (hc : S4x16384.ShapeCasts S1x4x16384)
    (h : Shape.Concatenates [S1x4x16384, S1x4x16384, S1x4x16384, S1x4x16384] S4x4x16384 0) (k : Fin 4) (n : Fin 16384) :
    concatenate S4x4x16384 0 [⟨S1x4x16384, shapeCast S1x4x16384 m0 hc⟩, ⟨S1x4x16384, shapeCast S1x4x16384 m1 hc⟩,
      ⟨S1x4x16384, shapeCast S1x4x16384 m2 hc⟩, ⟨S1x4x16384, shapeCast S1x4x16384 m3 hc⟩] h (ix3 (0 : Fin 4) k n) = m0 (ix2 k n) := by
  refine (concatenate_apply_piece (t := S4x4x16384) (0 : Fin 3)
    [⟨S1x4x16384, shapeCast S1x4x16384 m0 hc⟩, ⟨S1x4x16384, shapeCast S1x4x16384 m1 hc⟩,
      ⟨S1x4x16384, shapeCast S1x4x16384 m2 hc⟩, ⟨S1x4x16384, shapeCast S1x4x16384 m3 hc⟩] h (ix3 (0 : Fin 4) k n) 0 (by show (0 : Nat) < 4; omega)
    S1x4x16384 (shapeCast S1x4x16384 m0 hc) rfl rfl 0 rfl (ix3 (0 : Fin 1) k n) (fun b hb => ?_) rfl).trans
    (shapeCast_ab_1ab_apply m0 hc 0 k n)
  match b with
  | ⟨0, _⟩ => exact absurd rfl hb
  | ⟨1, _⟩ => rfl
  | ⟨2, _⟩ => rfl

/-- Four [4,N] arrays, each viewed [1,4,N], laid along axis 0 as a [4,4,N] stack: at (1, k, n) it is the second array at (k, n). -/
theorem stack4_apply_1 (m0 m1 m2 m3 : S4x16384.Idx → α) (hc : S4x16384.ShapeCasts S1x4x16384)
    (h : Shape.Concatenates [S1x4x16384, S1x4x16384, S1x4x16384, S1x4x16384] S4x4x16384 0) (k : Fin 4) (n : Fin 16384) :
    concatenate S4x4x16384 0 [⟨S1x4x16384, shapeCast S1x4x16384 m0 hc⟩, ⟨S1x4x16384, shapeCast S1x4x16384 m1 hc⟩,
      ⟨S1x4x16384, shapeCast S1x4x16384 m2 hc⟩, ⟨S1x4x16384, shapeCast S1x4x16384 m3 hc⟩] h (ix3 (1 : Fin 4) k n) = m1 (ix2 k n) := by
  refine (concatenate_apply_piece (t := S4x4x16384) (0 : Fin 3)
    [⟨S1x4x16384, shapeCast S1x4x16384 m0 hc⟩, ⟨S1x4x16384, shapeCast S1x4x16384 m1 hc⟩,
      ⟨S1x4x16384, shapeCast S1x4x16384 m2 hc⟩, ⟨S1x4x16384, shapeCast S1x4x16384 m3 hc⟩] h (ix3 (1 : Fin 4) k n) 1 (by show (1 : Nat) < 4; omega)
    S1x4x16384 (shapeCast S1x4x16384 m1 hc) rfl rfl 1 rfl (ix3 (0 : Fin 1) k n) (fun b hb => ?_) rfl).trans
    (shapeCast_ab_1ab_apply m1 hc 0 k n)
  match b with
  | ⟨0, _⟩ => exact absurd rfl hb
  | ⟨1, _⟩ => rfl
  | ⟨2, _⟩ => rfl

/-- Four [4,N] arrays, each viewed [1,4,N], laid along axis 0 as a [4,4,N] stack: at (2, k, n) it is the third array at (k, n). -/
theorem stack4_apply_2 (m0 m1 m2 m3 : S4x16384.Idx → α) (hc : S4x16384.ShapeCasts S1x4x16384)
    (h : Shape.Concatenates [S1x4x16384, S1x4x16384, S1x4x16384, S1x4x16384] S4x4x16384 0) (k : Fin 4) (n : Fin 16384) :
    concatenate S4x4x16384 0 [⟨S1x4x16384, shapeCast S1x4x16384 m0 hc⟩, ⟨S1x4x16384, shapeCast S1x4x16384 m1 hc⟩,
      ⟨S1x4x16384, shapeCast S1x4x16384 m2 hc⟩, ⟨S1x4x16384, shapeCast S1x4x16384 m3 hc⟩] h (ix3 (2 : Fin 4) k n) = m2 (ix2 k n) := by
  refine (concatenate_apply_piece (t := S4x4x16384) (0 : Fin 3)
    [⟨S1x4x16384, shapeCast S1x4x16384 m0 hc⟩, ⟨S1x4x16384, shapeCast S1x4x16384 m1 hc⟩,
      ⟨S1x4x16384, shapeCast S1x4x16384 m2 hc⟩, ⟨S1x4x16384, shapeCast S1x4x16384 m3 hc⟩] h (ix3 (2 : Fin 4) k n) 2 (by show (2 : Nat) < 4; omega)
    S1x4x16384 (shapeCast S1x4x16384 m2 hc) rfl rfl 2 rfl (ix3 (0 : Fin 1) k n) (fun b hb => ?_) rfl).trans
    (shapeCast_ab_1ab_apply m2 hc 0 k n)
  match b with
  | ⟨0, _⟩ => exact absurd rfl hb
  | ⟨1, _⟩ => rfl
  | ⟨2, _⟩ => rfl

/-- Four [4,N] arrays, each viewed [1,4,N], laid along axis 0 as a [4,4,N] stack: at (3, k, n) it is the fourth array at (k, n). -/
theorem stack4_apply_3 (m0 m1 m2 m3 : S4x16384.Idx → α) (hc : S4x16384.ShapeCasts S1x4x16384)
    (h : Shape.Concatenates [S1x4x16384, S1x4x16384, S1x4x16384, S1x4x16384] S4x4x16384 0) (k : Fin 4) (n : Fin 16384) :
    concatenate S4x4x16384 0 [⟨S1x4x16384, shapeCast S1x4x16384 m0 hc⟩, ⟨S1x4x16384, shapeCast S1x4x16384 m1 hc⟩,
      ⟨S1x4x16384, shapeCast S1x4x16384 m2 hc⟩, ⟨S1x4x16384, shapeCast S1x4x16384 m3 hc⟩] h (ix3 (3 : Fin 4) k n) = m3 (ix2 k n) := by
  refine (concatenate_apply_piece (t := S4x4x16384) (0 : Fin 3)
    [⟨S1x4x16384, shapeCast S1x4x16384 m0 hc⟩, ⟨S1x4x16384, shapeCast S1x4x16384 m1 hc⟩,
      ⟨S1x4x16384, shapeCast S1x4x16384 m2 hc⟩, ⟨S1x4x16384, shapeCast S1x4x16384 m3 hc⟩] h (ix3 (3 : Fin 4) k n) 3 (by show (3 : Nat) < 4; omega)
    S1x4x16384 (shapeCast S1x4x16384 m3 hc) rfl rfl 3 rfl (ix3 (0 : Fin 1) k n) (fun b hb => ?_) rfl).trans
    (shapeCast_ab_1ab_apply m3 hc 0 k n)
  match b with
  | ⟨0, _⟩ => exact absurd rfl hb
  | ⟨1, _⟩ => rfl
  | ⟨2, _⟩ => rfl

end Stack

/-! ## The inputs' rows -/

/-- Row n's axis-angle vector. -/
abbrev rOf (x1 : Vec Ideal S16384x3 .f32) (n : Fin 16384) : Fin 3 → EReal := fun j => x1 (ix2 n j)
/-- Row n's translation. -/
abbrev tOf (x2 : Vec Ideal S16384x3 .f32) (n : Fin 16384) : Fin 3 → EReal := fun j => x2 (ix2 n j)
/-- Row n's pose matrix. -/
abbrev pOf (x0 : Vec Ideal S16384x4x4 .f32) (n : Fin 16384) : Fin 4 → Fin 4 → EReal := fun a b => x0 (ix3 n a b)

/-! ## A cell of the transposed poses, its two leading coordinates read off the cut's offsets -/

section Cell
variable {α : Type}

theorem cell_lt0 {oa ob : Nat} (h : S4x4x16384.Slices ![oa, ob, 0] S1x1x16384) : oa < 4 := by
  have h0 : oa + 1 ≤ 4 := h.2 (0 : Fin 3)
  omega
theorem cell_lt1 {oa ob : Nat} (h : S4x4x16384.Slices ![oa, ob, 0] S1x1x16384) : ob < 4 := by
  have h1 : ob + 1 ≤ 4 := h.2 (1 : Fin 3)
  omega

/-- The [1,1,N] cell cut at offsets (oa, ob, 0) reads, at (·, ·, n), the stack at (oa, ob, n). -/
theorem cell_eq (oa ob : Nat) (x : S4x4x16384.Idx → α) (h : S4x4x16384.Slices ![oa, ob, 0] S1x1x16384)
    (u u' : Fin 1) (n : Fin 16384) :
    extractStridedSlice S1x1x16384 ![oa, ob, 0] x h (ix3 u u' n)
      = x (ix3 (⟨oa, cell_lt0 h⟩ : Fin 4) (⟨ob, cell_lt1 h⟩ : Fin 4) n) :=
  cell_apply oa ob x h _ _ rfl rfl u u' n

end Cell

/-! ## The payloads that read the inputs -/

section Reads
variable (x0 : Vec Ideal S16384x4x4 .f32) (x1 x2 : Vec Ideal S16384x3 .f32) (n : Fin 16384)

/-- The transposed poses at (a, b, n) are the poses at (n, a, b). -/
theorem pay1_apply (a b : Fin 4) : k0_pay1 (F := Ideal) x0 (ix3 a b n) = x0 (ix3 n a b) := by
  unfold k0_pay1; exact tr120_apply x0 _ a b n

/-- r₀ at n. -/
theorem pay4_apply : k0_pay4 (F := Ideal) x1 (ix1 n) = x1 (ix2 n (0 : Fin 3)) := by
  unfold k0_pay4 k0_pay2; exact (row3_apply 0 _ _ _ 0 rfl n).trans (tr10_apply x1 _ 0 n)
/-- r₁ at n. -/
theorem pay5_apply : k0_pay5 (F := Ideal) x1 (ix1 n) = x1 (ix2 n (1 : Fin 3)) := by
  unfold k0_pay5 k0_pay2; exact (row3_apply 1 _ _ _ 1 rfl n).trans (tr10_apply x1 _ 1 n)
/-- r₂ at n. -/
theorem pay6_apply : k0_pay6 (F := Ideal) x1 (ix1 n) = x1 (ix2 n (2 : Fin 3)) := by
  unfold k0_pay6 k0_pay2; exact (row3_apply 2 _ _ _ 2 rfl n).trans (tr10_apply x1 _ 2 n)
/-- t₀ at n. -/
theorem pay7_apply : k0_pay7 (F := Ideal) x2 (ix1 n) = x2 (ix2 n (0 : Fin 3)) := by
  unfold k0_pay7 k0_pay3; exact (row3_apply 0 _ _ _ 0 rfl n).trans (tr10_apply x2 _ 0 n)
/-- t₁ at n. -/
theorem pay8_apply : k0_pay8 (F := Ideal) x2 (ix1 n) = x2 (ix2 n (1 : Fin 3)) := by
  unfold k0_pay8 k0_pay3; exact (row3_apply 1 _ _ _ 1 rfl n).trans (tr10_apply x2 _ 1 n)
/-- t₂ at n. -/
theorem pay9_apply : k0_pay9 (F := Ideal) x2 (ix1 n) = x2 (ix2 n (2 : Fin 3)) := by
  unfold k0_pay9 k0_pay3; exact (row3_apply 2 _ _ _ 2 rfl n).trans (tr10_apply x2 _ 2 n)

/-! ## The pointwise chain: |r|², θ, sin θ / θ, (1 − cos θ) / θ², and the entries of the camera matrix -/

/-- |r|² at n: the three squares added from the left. -/
theorem pay10_apply : k0_pay10 (F := Ideal) x1 (ix1 n) = Cert.Pose.lenSqK (rOf x1 n) := by
  show k0_pay4 (F := Ideal) x1 (ix1 n) * k0_pay4 (F := Ideal) x1 (ix1 n)
      + k0_pay5 (F := Ideal) x1 (ix1 n) * k0_pay5 (F := Ideal) x1 (ix1 n)
      + k0_pay6 (F := Ideal) x1 (ix1 n) * k0_pay6 (F := Ideal) x1 (ix1 n) = _
  rw [pay4_apply, pay5_apply, pay6_apply]; rfl

/-- θ at n: the square root of |r|² plus the guard. -/
theorem pay11_apply : k0_pay11 (F := Ideal) x1 (ix1 n) = Cert.Pose.angle (Cert.Pose.lenSqK (rOf x1 n)) := by
  show Ideal.sqrt (k0_pay10 (F := Ideal) x1 (ix1 n)) + Ideal.ofBits .f32 0x26901D7D#32 = _
  rw [pay10_apply]; rfl

/-- sin θ / θ at n. -/
theorem pay12_apply : k0_pay12 (F := Ideal) x1 (ix1 n) = Cert.Pose.sinc (Cert.Pose.angle (Cert.Pose.lenSqK (rOf x1 n))) := by
  show Ideal.div (Ideal.sin (k0_pay11 (F := Ideal) x1 (ix1 n))) (k0_pay11 (F := Ideal) x1 (ix1 n)) = _
  rw [pay11_apply]; rfl

/-- (1 − cos θ) / θ² at n. -/
theorem pay13_apply : k0_pay13 (F := Ideal) x1 (ix1 n) = Cert.Pose.cosc (Cert.Pose.angle (Cert.Pose.lenSqK (rOf x1 n))) := by
  show Ideal.div (Ideal.ofBits .f32 0x3F800000#32 - Ideal.cos (k0_pay11 (F := Ideal) x1 (ix1 n)))
      (k0_pay11 (F := Ideal) x1 (ix1 n) * k0_pay11 (F := Ideal) x1 (ix1 n)) = _
  rw [pay11_apply]; rfl

/-- r₀ r₁ at n. -/
theorem pay14_apply : k0_pay14 (F := Ideal) x1 (ix1 n) = rOf x1 n 0 * rOf x1 n 1 := by
  show k0_pay4 (F := Ideal) x1 (ix1 n) * k0_pay5 (F := Ideal) x1 (ix1 n) = _
  rw [pay4_apply, pay5_apply]
/-- r₀ r₂ at n. -/
theorem pay15_apply : k0_pay15 (F := Ideal) x1 (ix1 n) = rOf x1 n 0 * rOf x1 n 2 := by
  show k0_pay4 (F := Ideal) x1 (ix1 n) * k0_pay6 (F := Ideal) x1 (ix1 n) = _
  rw [pay4_apply, pay6_apply]
/-- r₁² − |r|² at n. -/
theorem pay16_apply : k0_pay16 (F := Ideal) x1 (ix1 n) = rOf x1 n 1 * rOf x1 n 1 - Cert.Pose.lenSqK (rOf x1 n) := by
  show k0_pay5 (F := Ideal) x1 (ix1 n) * k0_pay5 (F := Ideal) x1 (ix1 n) - k0_pay10 (F := Ideal) x1 (ix1 n) = _
  rw [pay5_apply, pay10_apply]
/-- r₁ r₂ at n. -/
theorem pay17_apply : k0_pay17 (F := Ideal) x1 (ix1 n) = rOf x1 n 1 * rOf x1 n 2 := by
  show k0_pay5 (F := Ideal) x1 (ix1 n) * k0_pay6 (F := Ideal) x1 (ix1 n) = _
  rw [pay5_apply, pay6_apply]
/-- r₂² − |r|² at n. -/
theorem pay18_apply : k0_pay18 (F := Ideal) x1 (ix1 n) = rOf x1 n 2 * rOf x1 n 2 - Cert.Pose.lenSqK (rOf x1 n) := by
  show k0_pay6 (F := Ideal) x1 (ix1 n) * k0_pay6 (F := Ideal) x1 (ix1 n) - k0_pay10 (F := Ideal) x1 (ix1 n) = _
  rw [pay6_apply, pay10_apply]

/-- The splat 1.0 at n. -/
theorem pay19_apply : k0_pay19 (F := Ideal) (ix1 n) = Cert.Pose.one := rfl
/-- The splat 0.0 at n. -/
theorem pay20_apply : k0_pay20 (F := Ideal) (ix1 n) = Cert.Pose.zero := rfl
/-- The splat 0.0 at n. -/
theorem pay22_apply : k0_pay22 (F := Ideal) (ix1 n) = Cert.Pose.zero := rfl

/-- Camera entry (0, 0) at n. -/
theorem pay21_cam : k0_pay21 (F := Ideal) x1 (ix1 n) = Cert.Pose.camK (rOf x1 n) (tOf x2 n) 0 0 := by
  show k0_pay19 (F := Ideal) (ix1 n) + k0_pay13 (F := Ideal) x1 (ix1 n)
      * (k0_pay4 (F := Ideal) x1 (ix1 n) * k0_pay4 (F := Ideal) x1 (ix1 n) - k0_pay10 (F := Ideal) x1 (ix1 n)) = _
  rw [pay13_apply, pay4_apply, pay10_apply]; rfl
/-- Camera entry (0, 1) at n. -/
theorem pay23_cam : k0_pay23 (F := Ideal) (k0_pay6 x1) (k0_pay12 x1) (k0_pay13 x1) (k0_pay14 x1) k0_pay22 (ix1 n)
    = Cert.Pose.camK (rOf x1 n) (tOf x2 n) 0 1 := by
  show k0_pay12 (F := Ideal) x1 (ix1 n) * (k0_pay22 (F := Ideal) (ix1 n) - k0_pay6 (F := Ideal) x1 (ix1 n))
      + k0_pay13 (F := Ideal) x1 (ix1 n) * k0_pay14 (F := Ideal) x1 (ix1 n) = _
  rw [pay12_apply, pay6_apply, pay13_apply, pay14_apply]; rfl
/-- Camera entry (0, 2) at n. -/
theorem pay24_cam : k0_pay24 (F := Ideal) (k0_pay5 x1) (k0_pay12 x1) (k0_pay13 x1) (k0_pay15 x1) (ix1 n)
    = Cert.Pose.camK (rOf x1 n) (tOf x2 n) 0 2 := by
  show k0_pay12 (F := Ideal) x1 (ix1 n) * k0_pay5 (F := Ideal) x1 (ix1 n)
      + k0_pay13 (F := Ideal) x1 (ix1 n) * k0_pay15 (F := Ideal) x1 (ix1 n) = _
  rw [pay12_apply, pay5_apply, pay13_apply, pay15_apply]; rfl
/-- Camera entry (1, 0) at n. -/
theorem pay25_cam : k0_pay25 (F := Ideal) (k0_pay6 x1) (k0_pay12 x1) (k0_pay13 x1) (k0_pay14 x1) (ix1 n)
    = Cert.Pose.camK (rOf x1 n) (tOf x2 n) 1 0 := by
  show k0_pay12 (F := Ideal) x1 (ix1 n) * k0_pay6 (F := Ideal) x1 (ix1 n)
      + k0_pay13 (F := Ideal) x1 (ix1 n) * k0_pay14 (F := Ideal) x1 (ix1 n) = _
  rw [pay12_apply, pay6_apply, pay13_apply, pay14_apply]; rfl
/-- Camera entry (1, 1) at n. -/
theorem pay26_cam : k0_pay26 (F := Ideal) (k0_pay13 x1) (k0_pay16 x1) k0_pay19 (ix1 n)
    = Cert.Pose.camK (rOf x1 n) (tOf x2 n) 1 1 := by
  show k0_pay19 (F := Ideal) (ix1 n) + k0_pay13 (F := Ideal) x1 (ix1 n) * k0_pay16 (F := Ideal) x1 (ix1 n) = _
  rw [pay13_apply, pay16_apply]; rfl
/-- Camera entry (1, 2) at n. -/
theorem pay27_cam : k0_pay27 (F := Ideal) (k0_pay4 x1) (k0_pay12 x1) (k0_pay13 x1) (k0_pay17 x1) (ix1 n)
    = Cert.Pose.camK (rOf x1 n) (tOf x2 n) 1 2 := by
  show k0_pay12 (F := Ideal) x1 (ix1 n) * (Ideal.ofBits .f32 0x00000000#32 - k0_pay4 (F := Ideal) x1 (ix1 n))
      + k0_pay13 (F := Ideal) x1 (ix1 n) * k0_pay17 (F := Ideal) x1 (ix1 n) = _
  rw [pay12_apply, pay4_apply, pay13_apply, pay17_apply]; rfl
/-- Camera entry (2, 0) at n. -/
theorem pay28_cam : k0_pay28 (F := Ideal) (k0_pay5 x1) (k0_pay12 x1) (k0_pay13 x1) (k0_pay15 x1) (ix1 n)
    = Cert.Pose.camK (rOf x1 n) (tOf x2 n) 2 0 := by
  show k0_pay12 (F := Ideal) x1 (ix1 n) * (Ideal.ofBits .f32 0x00000000#32 - k0_pay5 (F := Ideal) x1 (ix1 n))
      + k0_pay13 (F := Ideal) x1 (ix1 n) * k0_pay15 (F := Ideal) x1 (ix1 n) = _
  rw [pay12_apply, pay5_apply, pay13_apply, pay15_apply]; rfl
/-- Camera entry (2, 1) at n. -/
theorem pay29_cam : k0_pay29 (F := Ideal) (k0_pay4 x1) (k0_pay12 x1) (k0_pay13 x1) (k0_pay17 x1) (ix1 n)
    = Cert.Pose.camK (rOf x1 n) (tOf x2 n) 2 1 := by
  show k0_pay12 (F := Ideal) x1 (ix1 n) * k0_pay4 (F := Ideal) x1 (ix1 n)
      + k0_pay13 (F := Ideal) x1 (ix1 n) * k0_pay17 (F := Ideal) x1 (ix1 n) = _
  rw [pay12_apply, pay4_apply, pay13_apply, pay17_apply]; rfl
/-- Camera entry (2, 2) at n. -/
theorem pay30_cam : k0_pay30 (F := Ideal) (k0_pay13 x1) (k0_pay18 x1) k0_pay19 (ix1 n)
    = Cert.Pose.camK (rOf x1 n) (tOf x2 n) 2 2 := by
  show k0_pay19 (F := Ideal) (ix1 n) + k0_pay13 (F := Ideal) x1 (ix1 n) * k0_pay18 (F := Ideal) x1 (ix1 n) = _
  rw [pay13_apply, pay18_apply]; rfl

end Reads

/-! ## The accumulations: an output entry as four products added from the left -/

section Acc
variable (v3 : FVec Ideal S4x4x16384 .f32) (n : Fin 16384)
variable (v7 v9 v11 v13 v15 v17 v28 v32 v35 v36 v42 v43 v45 v46 v50 v53 v56 v58 v63 v68 v71 v73 : FVec Ideal S16384 .f32)
variable (v88 v103 v153 v164 v218 v221 v224 v283 : FVec Ideal S16384 .f32) (v104 v284 : FVec Ideal S1x1x16384 .f32)
variable (v138 v203 v268 : FVec Ideal S4x16384 .f32)

/-- The cell (0, 2) of the transposed poses. -/
theorem pay33_apply (u u' : Fin 1) : k0_pay33 (F := Ideal) v3 (ix3 u u' n) = v3 (ix3 (0 : Fin 4) (2 : Fin 4) n) := by
  unfold k0_pay33; exact cell_apply 0 2 v3 _ 0 2 rfl rfl u u' n
/-- The cell (0, 1) of the transposed poses. -/
theorem pay43_apply (u u' : Fin 1) : k0_pay43 (F := Ideal) v3 (ix3 u u' n) = v3 (ix3 (0 : Fin 4) (1 : Fin 4) n) := by
  unfold k0_pay43; exact cell_apply 0 1 v3 _ 0 1 rfl rfl u u' n

/-- Row 0, column 0. -/
theorem pay31_apply : k0_pay31 (F := Ideal) v3 v9 v11 v13 v28 v32 v35 v36 v45 v46 (ix1 n)
    = v45 (ix1 n) * v3 (ix3 (0 : Fin 4) (0 : Fin 4) n) + k0_pay23 (F := Ideal) v11 v28 v32 v35 v46 (ix1 n) * v3 (ix3 (1 : Fin 4) (0 : Fin 4) n) + k0_pay24 (F := Ideal) v9 v28 v32 v36 (ix1 n) * v3 (ix3 (2 : Fin 4) (0 : Fin 4) n) + v13 (ix1 n) * v3 (ix3 (3 : Fin 4) (0 : Fin 4) n) := by
  unfold k0_pay31
  simp only [addf_apply, mulf_apply, flat11_apply, cell_eq] <;> rfl

/-- Row 0, column 1. -/
theorem pay32_apply : k0_pay32 (F := Ideal) v3 v9 v11 v13 v28 v32 v35 v36 v45 v46 (ix1 n)
    = v45 (ix1 n) * v3 (ix3 (0 : Fin 4) (1 : Fin 4) n) + k0_pay23 (F := Ideal) v11 v28 v32 v35 v46 (ix1 n) * v3 (ix3 (1 : Fin 4) (1 : Fin 4) n) + k0_pay24 (F := Ideal) v9 v28 v32 v36 (ix1 n) * v3 (ix3 (2 : Fin 4) (1 : Fin 4) n) + v13 (ix1 n) * v3 (ix3 (3 : Fin 4) (1 : Fin 4) n) := by
  unfold k0_pay32
  simp only [addf_apply, mulf_apply, flat11_apply, cell_eq] <;> rfl

/-- Row 0 stacked: column 0. -/
theorem pay34_row0 : k0_pay34 (F := Ideal) v3 v13 v45 v50 v53 v88 v103 v104 (ix2 (0 : Fin 4) n)
    = v88 (ix1 n) := by
  unfold k0_pay34
  exact rows4_apply_0 _ _ _ _ _ _ n

/-- Row 0 stacked: column 1. -/
theorem pay34_row1 : k0_pay34 (F := Ideal) v3 v13 v45 v50 v53 v88 v103 v104 (ix2 (1 : Fin 4) n)
    = v103 (ix1 n) := by
  unfold k0_pay34
  exact rows4_apply_1 _ _ _ _ _ _ n

/-- Row 0 stacked: column 2, its first cell read before the stacking. -/
theorem pay34_row2 : k0_pay34 (F := Ideal) v3 v13 v45 v50 v53 v88 v103 v104 (ix2 (2 : Fin 4) n)
    = v45 (ix1 n) * v104 (ix3 (0 : Fin 1) (0 : Fin 1) n) + v50 (ix1 n) * v3 (ix3 (1 : Fin 4) (2 : Fin 4) n) + v53 (ix1 n) * v3 (ix3 (2 : Fin 4) (2 : Fin 4) n) + v13 (ix1 n) * v3 (ix3 (3 : Fin 4) (2 : Fin 4) n) := by
  unfold k0_pay34
  refine (rows4_apply_2 _ _ _ _ _ _ n).trans ?_
  simp only [addf_apply, mulf_apply, flat11_apply, cell_eq] <;> rfl

/-- Row 0 stacked: column 3. -/
theorem pay34_row3 : k0_pay34 (F := Ideal) v3 v13 v45 v50 v53 v88 v103 v104 (ix2 (3 : Fin 4) n)
    = v45 (ix1 n) * v3 (ix3 (0 : Fin 4) (3 : Fin 4) n) + v50 (ix1 n) * v3 (ix3 (1 : Fin 4) (3 : Fin 4) n) + v53 (ix1 n) * v3 (ix3 (2 : Fin 4) (3 : Fin 4) n) + v13 (ix1 n) * v3 (ix3 (3 : Fin 4) (3 : Fin 4) n) := by
  unfold k0_pay34
  refine (rows4_apply_3 _ _ _ _ _ _ n).trans ?_
  simp only [addf_apply, mulf_apply, flat11_apply, cell_eq] <;> rfl

/-- Row 1, column 0. -/
theorem pay35_apply : k0_pay35 (F := Ideal) v3 v15 v56 v58 v63 (ix1 n)
    = v56 (ix1 n) * v3 (ix3 (0 : Fin 4) (0 : Fin 4) n) + v58 (ix1 n) * v3 (ix3 (1 : Fin 4) (0 : Fin 4) n) + v63 (ix1 n) * v3 (ix3 (2 : Fin 4) (0 : Fin 4) n) + v15 (ix1 n) * v3 (ix3 (3 : Fin 4) (0 : Fin 4) n) := by
  unfold k0_pay35
  simp only [addf_apply, mulf_apply, flat11_apply, cell_eq] <;> rfl

/-- Row 1, column 1: the first three products. -/
theorem pay36_apply : k0_pay36 (F := Ideal) v3 v56 v58 v63 (ix1 n)
    = v56 (ix1 n) * v3 (ix3 (0 : Fin 4) (1 : Fin 4) n) + v58 (ix1 n) * v3 (ix3 (1 : Fin 4) (1 : Fin 4) n) + v63 (ix1 n) * v3 (ix3 (2 : Fin 4) (1 : Fin 4) n) := by
  unfold k0_pay36
  simp only [addf_apply, mulf_apply, flat11_apply, cell_eq] <;> rfl

/-- Row 1 stacked: column 0. -/
theorem pay37_row0 : k0_pay37 (F := Ideal) v3 v15 v56 v58 v63 v153 v164 (ix2 (0 : Fin 4) n)
    = v153 (ix1 n) := by
  unfold k0_pay37
  exact rows4_apply_0 _ _ _ _ _ _ n

/-- Row 1 stacked: column 1, the fourth product added. -/
theorem pay37_row1 : k0_pay37 (F := Ideal) v3 v15 v56 v58 v63 v153 v164 (ix2 (1 : Fin 4) n)
    = v164 (ix1 n) + v15 (ix1 n) * v3 (ix3 (3 : Fin 4) (1 : Fin 4) n) := by
  unfold k0_pay37
  refine (rows4_apply_1 _ _ _ _ _ _ n).trans ?_
  simp only [addf_apply, mulf_apply, flat11_apply, cell_eq] <;> rfl

/-- Row 1 stacked: column 2. -/
theorem pay37_row2 : k0_pay37 (F := Ideal) v3 v15 v56 v58 v63 v153 v164 (ix2 (2 : Fin 4) n)
    = v56 (ix1 n) * v3 (ix3 (0 : Fin 4) (2 : Fin 4) n) + v58 (ix1 n) * v3 (ix3 (1 : Fin 4) (2 : Fin 4) n) + v63 (ix1 n) * v3 (ix3 (2 : Fin 4) (2 : Fin 4) n) + v15 (ix1 n) * v3 (ix3 (3 : Fin 4) (2 : Fin 4) n) := by
  unfold k0_pay37
  refine (rows4_apply_2 _ _ _ _ _ _ n).trans ?_
  simp only [addf_apply, mulf_apply, flat11_apply, cell_eq] <;> rfl

/-- Row 1 stacked: column 3. -/
theorem pay37_row3 : k0_pay37 (F := Ideal) v3 v15 v56 v58 v63 v153 v164 (ix2 (3 : Fin 4) n)
    = v56 (ix1 n) * v3 (ix3 (0 : Fin 4) (3 : Fin 4) n) + v58 (ix1 n) * v3 (ix3 (1 : Fin 4) (3 : Fin 4) n) + v63 (ix1 n) * v3 (ix3 (2 : Fin 4) (3 : Fin 4) n) + v15 (ix1 n) * v3 (ix3 (3 : Fin 4) (3 : Fin 4) n) := by
  unfold k0_pay37
  refine (rows4_apply_3 _ _ _ _ _ _ n).trans ?_
  simp only [addf_apply, mulf_apply, flat11_apply, cell_eq] <;> rfl

/-- Row 2, column 0. -/
theorem pay38_apply : k0_pay38 (F := Ideal) v3 v17 v68 v71 v73 (ix1 n)
    = v68 (ix1 n) * v3 (ix3 (0 : Fin 4) (0 : Fin 4) n) + v71 (ix1 n) * v3 (ix3 (1 : Fin 4) (0 : Fin 4) n) + v73 (ix1 n) * v3 (ix3 (2 : Fin 4) (0 : Fin 4) n) + v17 (ix1 n) * v3 (ix3 (3 : Fin 4) (0 : Fin 4) n) := by
  unfold k0_pay38
  simp only [addf_apply, mulf_apply, flat11_apply, cell_eq] <;> rfl

/-- Row 2, column 1: the first product. -/
theorem pay39_apply : k0_pay39 (F := Ideal) v3 v68 (ix1 n) = v68 (ix1 n) * v3 (ix3 (0 : Fin 4) (1 : Fin 4) n) := by
  unfold k0_pay39
  simp only [mulf_apply, flat11_apply, cell_eq] <;> rfl
/-- Row 2, column 1: the second product. -/
theorem pay40_apply : k0_pay40 (F := Ideal) v3 v71 (ix1 n) = v71 (ix1 n) * v3 (ix3 (1 : Fin 4) (1 : Fin 4) n) := by
  unfold k0_pay40
  simp only [mulf_apply, flat11_apply, cell_eq] <;> rfl

/-- Row 2 stacked: column 0. -/
theorem pay41_row0 : k0_pay41 (F := Ideal) v3 v17 v68 v71 v73 v218 v221 v224 (ix2 (0 : Fin 4) n)
    = v218 (ix1 n) := by
  unfold k0_pay41
  exact rows4_apply_0 _ _ _ _ _ _ n

/-- Row 2 stacked: column 1, the last two products added. -/
theorem pay41_row1 : k0_pay41 (F := Ideal) v3 v17 v68 v71 v73 v218 v221 v224 (ix2 (1 : Fin 4) n)
    = v221 (ix1 n) + v224 (ix1 n) + v73 (ix1 n) * v3 (ix3 (2 : Fin 4) (1 : Fin 4) n) + v17 (ix1 n) * v3 (ix3 (3 : Fin 4) (1 : Fin 4) n) := by
  unfold k0_pay41
  refine (rows4_apply_1 _ _ _ _ _ _ n).trans ?_
  simp only [addf_apply, mulf_apply, flat11_apply, cell_eq] <;> rfl

/-- Row 2 stacked: column 2. -/
theorem pay41_row2 : k0_pay41 (F := Ideal) v3 v17 v68 v71 v73 v218 v221 v224 (ix2 (2 : Fin 4) n)
    = v68 (ix1 n) * v3 (ix3 (0 : Fin 4) (2 : Fin 4) n) + v71 (ix1 n) * v3 (ix3 (1 : Fin 4) (2 : Fin 4) n) + v73 (ix1 n) * v3 (ix3 (2 : Fin 4) (2 : Fin 4) n) + v17 (ix1 n) * v3 (ix3 (3 : Fin 4) (2 : Fin 4) n) := by
  unfold k0_pay41
  refine (rows4_apply_2 _ _ _ _ _ _ n).trans ?_
  simp only [addf_apply, mulf_apply, flat11_apply, cell_eq] <;> rfl

/-- Row 2 stacked: column 3. -/
theorem pay41_row3 : k0_pay41 (F := Ideal) v3 v17 v68 v71 v73 v218 v221 v224 (ix2 (3 : Fin 4) n)
    = v68 (ix1 n) * v3 (ix3 (0 : Fin 4) (3 : Fin 4) n) + v71 (ix1 n) * v3 (ix3 (1 : Fin 4) (3 : Fin 4) n) + v73 (ix1 n) * v3 (ix3 (2 : Fin 4) (3 : Fin 4) n) + v17 (ix1 n) * v3 (ix3 (3 : Fin 4) (3 : Fin 4) n) := by
  unfold k0_pay41
  refine (rows4_apply_3 _ _ _ _ _ _ n).trans ?_
  simp only [addf_apply, mulf_apply, flat11_apply, cell_eq] <;> rfl

/-- Row 3, column 0. -/
theorem pay42_apply : k0_pay42 (F := Ideal) v3 v42 v43 (ix1 n)
    = v43 (ix1 n) * v3 (ix3 (0 : Fin 4) (0 : Fin 4) n) + v43 (ix1 n) * v3 (ix3 (1 : Fin 4) (0 : Fin 4) n) + v43 (ix1 n) * v3 (ix3 (2 : Fin 4) (0 : Fin 4) n) + v42 (ix1 n) * v3 (ix3 (3 : Fin 4) (0 : Fin 4) n) := by
  unfold k0_pay42
  simp only [addf_apply, mulf_apply, flat11_apply, cell_eq] <;> rfl

/-- The stored block at (n, 0, k): row 0's stack at (k, n). -/
theorem pay44_i0 (k : Fin 4) : k0_pay44 (F := Ideal) v3 v42 v43 v138 v203 v268 v283 v284 (ix3 n (0 : Fin 4) k) = v138 (ix2 k n) := by
  unfold k0_pay44
  exact (tr201_apply _ _ n 0 k).trans (stack4_apply_0 _ _ _ _ _ _ k n)
/-- The stored block at (n, 1, k): row 1's stack at (k, n). -/
theorem pay44_i1 (k : Fin 4) : k0_pay44 (F := Ideal) v3 v42 v43 v138 v203 v268 v283 v284 (ix3 n (1 : Fin 4) k) = v203 (ix2 k n) := by
  unfold k0_pay44
  exact (tr201_apply _ _ n 1 k).trans (stack4_apply_1 _ _ _ _ _ _ k n)
/-- The stored block at (n, 2, k): row 2's stack at (k, n). -/
theorem pay44_i2 (k : Fin 4) : k0_pay44 (F := Ideal) v3 v42 v43 v138 v203 v268 v283 v284 (ix3 n (2 : Fin 4) k) = v268 (ix2 k n) := by
  unfold k0_pay44
  exact (tr201_apply _ _ n 2 k).trans (stack4_apply_2 _ _ _ _ _ _ k n)
/-- The stored block at (n, 3, 0): row 3, column 0. -/
theorem pay44_i3_0 : k0_pay44 (F := Ideal) v3 v42 v43 v138 v203 v268 v283 v284 (ix3 n (3 : Fin 4) (0 : Fin 4)) = v283 (ix1 n) := by
  unfold k0_pay44
  exact (tr201_apply _ _ n 3 0).trans ((stack4_apply_3 _ _ _ _ _ _ 0 n).trans (rows4_apply_0 _ _ _ _ _ _ n))
/-- The stored block at (n, 3, 1): row 3, column 1, its first cell read before the stacking. -/
theorem pay44_i3_1 : k0_pay44 (F := Ideal) v3 v42 v43 v138 v203 v268 v283 v284 (ix3 n (3 : Fin 4) (1 : Fin 4))
    = v43 (ix1 n) * v284 (ix3 (0 : Fin 1) (0 : Fin 1) n) + v43 (ix1 n) * v3 (ix3 (1 : Fin 4) (1 : Fin 4) n) + v43 (ix1 n) * v3 (ix3 (2 : Fin 4) (1 : Fin 4) n) + v42 (ix1 n) * v3 (ix3 (3 : Fin 4) (1 : Fin 4) n) := by
  unfold k0_pay44
  refine (tr201_apply _ _ n 3 1).trans ((stack4_apply_3 _ _ _ _ _ _ 1 n).trans ((rows4_apply_1 _ _ _ _ _ _ n).trans ?_))
  simp only [addf_apply, mulf_apply, flat11_apply, cell_eq] <;> rfl
/-- The stored block at (n, 3, 2): row 3, column 2. -/
theorem pay44_i3_2 : k0_pay44 (F := Ideal) v3 v42 v43 v138 v203 v268 v283 v284 (ix3 n (3 : Fin 4) (2 : Fin 4))
    = v43 (ix1 n) * v3 (ix3 (0 : Fin 4) (2 : Fin 4) n) + v43 (ix1 n) * v3 (ix3 (1 : Fin 4) (2 : Fin 4) n) + v43 (ix1 n) * v3 (ix3 (2 : Fin 4) (2 : Fin 4) n) + v42 (ix1 n) * v3 (ix3 (3 : Fin 4) (2 : Fin 4) n) := by
  unfold k0_pay44
  refine (tr201_apply _ _ n 3 2).trans ((stack4_apply_3 _ _ _ _ _ _ 2 n).trans ((rows4_apply_2 _ _ _ _ _ _ n).trans ?_))
  simp only [addf_apply, mulf_apply, flat11_apply, cell_eq] <;> rfl
/-- The stored block at (n, 3, 3): row 3, column 3. -/
theorem pay44_i3_3 : k0_pay44 (F := Ideal) v3 v42 v43 v138 v203 v268 v283 v284 (ix3 n (3 : Fin 4) (3 : Fin 4))
    = v43 (ix1 n) * v3 (ix3 (0 : Fin 4) (3 : Fin 4) n) + v43 (ix1 n) * v3 (ix3 (1 : Fin 4) (3 : Fin 4) n) + v43 (ix1 n) * v3 (ix3 (2 : Fin 4) (3 : Fin 4) n) + v42 (ix1 n) * v3 (ix3 (3 : Fin 4) (3 : Fin 4) n) := by
  unfold k0_pay44
  refine (tr201_apply _ _ n 3 3).trans ((stack4_apply_3 _ _ _ _ _ _ 3 n).trans ((rows4_apply_3 _ _ _ _ _ _ n).trans ?_))
  simp only [addf_apply, mulf_apply, flat11_apply, cell_eq] <;> rfl

end Acc

/-! ## The stored block, entry by entry -/

section Entry

/-- A statement about every `i : Fin 4` from its four instances. -/
theorem fin4_forall {P : Fin 4 → Prop} (h0 : P 0) (h1 : P 1) (h2 : P 2) (h3 : P 3) : ∀ i, P i
  | ⟨0, _⟩ => h0
  | ⟨1, _⟩ => h1
  | ⟨2, _⟩ => h2
  | ⟨3, _⟩ => h3

/-- What the body leaves in its output block at (n, i, k): entry (i, k) of the camera matrix of row n's r and t times
    row n's pose — the one store's payload read through the transposes, the two stackings and the sixteen accumulations,
    each coefficient a camera entry by the pointwise chain. -/
theorem body_entry (x0 : Vec Ideal S16384x4x4 .f32) (x1 x2 : Vec Ideal S16384x3 .f32) (n : Fin 16384) (i k : Fin 4) :
    Gen.out0_3 (F := Ideal) x0 x1 x2 (ix3 n i k)
      = Cert.Pose.outK (fun j => x1 (ix2 n j)) (fun j => x2 (ix2 n j)) (fun a b => x0 (ix3 n a b)) i k := by
  have hz3 : (![0, 0, 0] : Fin 3 → Nat) = fun _ => 0 := by
    funext a; match a with | ⟨0, _⟩ => rfl | ⟨1, _⟩ => rfl | ⟨2, _⟩ => rfl
  have hz2 : (![0, 0] : Fin 2 → Nat) = fun _ => 0 := by
    funext a; match a with | ⟨0, _⟩ => rfl | ⟨1, _⟩ => rfl
  unfold Gen.out0_3
  rw [View.canon_unit_zero hz3]
  simp only [View.ld_unit_zero (S := S16384x4x4) hz3, View.ld_unit_zero (S := S16384x3) hz2]
  revert i k
  refine fin4_forall (fin4_forall ?_ ?_ ?_ ?_) (fin4_forall ?_ ?_ ?_ ?_) (fin4_forall ?_ ?_ ?_ ?_)
    (fin4_forall ?_ ?_ ?_ ?_)
  all_goals
    simp only [pay44_i0, pay44_i1, pay44_i2, pay44_i3_0, pay44_i3_1, pay44_i3_2, pay44_i3_3,
      pay34_row0, pay34_row1, pay34_row2, pay34_row3, pay37_row0, pay37_row1, pay37_row2, pay37_row3, pay41_row0, pay41_row1, pay41_row2, pay41_row3,
      pay31_apply, pay32_apply, pay35_apply, pay36_apply, pay38_apply, pay39_apply, pay40_apply, pay42_apply,
      pay33_apply, pay43_apply, pay1_apply,
      pay21_cam x1 x2 n, pay23_cam x1 x2 n, pay24_cam x1 x2 n, pay25_cam x1 x2 n, pay26_cam x1 x2 n, pay27_cam x1 x2 n, pay28_cam x1 x2 n, pay29_cam x1 x2 n, pay30_cam x1 x2 n,
      pay7_apply, pay8_apply, pay9_apply, pay19_apply, pay20_apply]
    rfl

end Entry

end Cert.KernelIdeal.PoseBody

end
-- ==== Proof.KernelArray.lean ====
/-
  From the blocks the kernel writes to the whole result array.

  The grid has 64 points; point t stages rows 16384·t … 16384·t + 16383 of each of the three argument arrays and
  writes back the same rows of the result.  What the body leaves at row n of its block is the camera-pose product
  of row n of the staged blocks (the hypothesis `hbody`, proved in Proof/KernelBody.lean), so what point t writes
  back is block t of ONE whole-array function `G` of the argument arrays: entry (N, i, k) of `G` is the product's
  entry (i, k) for row N.  The 64 blocks tile the array, row N lying in block N / 16384, so after the run the
  result array is `G`.
-/
import proofs.«146500_j21268678050229_1_alg».proof.Proof.Gen.KernelIdeal.Frame
import proofs.«146500_j21268678050229_1_alg».proof.Proof.Spec
import Idealize.ShloMosaic.Lib.ValueIdx
import Idealize.ShloMosaic.Lib.Pipeline.Value

set_option maxRecDepth 16384

noncomputable section

namespace Cert.KernelIdeal.PoseArray

open Cert.KernelIdeal Cert.KernelIdeal.Gen Idealize.ShloMosaic Idealize.ShloMosaic.TcCoe Idealize.SL.Sem
open Idealize.ShloMosaic.ValueIdx
open Idealize.ShloMosaic.Pipeline (Dat)

/-- The result array as one function of the three argument arrays: entry (N, i, k) is entry (i, k) of the
    camera-pose product of row N. -/
def G (p : S1048576x4x4.Idx → EReal) (r t : S1048576x3.Idx → EReal) : S1048576x4x4.Idx → EReal :=
  fun idx => Cert.Pose.outK (fun j => r (ix2 (idx 0 : Fin 1048576) j)) (fun j => t (ix2 (idx 0 : Fin 1048576) j))
    (fun a b => p (ix3 (idx 0 : Fin 1048576) a b)) (idx 1 : Fin 4) (idx 2 : Fin 4)

theorem G_apply (p : S1048576x4x4.Idx → EReal) (r t : S1048576x3.Idx → EReal) (N : Fin 1048576) (i k : Fin 4) :
    G p r t (ix3 N i k) = Cert.Pose.outK (fun j => r (ix2 N j)) (fun j => t (ix2 N j)) (fun a b => p (ix3 N a b)) i k := rfl

variable (m : (ℓ : Loc nD τ sig) → Buf (Elt Ideal) ℓ) (ρ : Dev nD → PrngReg)

/-- The printed index maps over the 64 grid points: every window's block index is (t, 0, …). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Row n of point t's block is row 16384·t + n of the array. -/
def rowOf (t : Fin cfg0.N) (n : Fin 16384) : Fin 1048576 :=
  ⟨t.val * 16384 + n.val, by have ht : t.val < 64 := t.isLt; have hn := n.isLt; omega⟩

/-- The hypothesis on the body: its output block at (n, i, k) is the product's entry for row n of the input blocks. -/
abbrev BodyEntry : Prop :=
  ∀ (x0 : Vec Ideal S16384x4x4 .f32) (x1 x2 : Vec Ideal S16384x3 .f32) (n : Fin 16384) (i k : Fin 4),
    Gen.out0_3 (F := Ideal) x0 x1 x2 (ix3 n i k)
      = Cert.Pose.outK (fun j => x1 (ix2 n j)) (fun j => x2 (ix2 n j)) (fun a b => x0 (ix3 n a b)) i k

/-- What point t writes back is block t of `G` of the argument arrays. -/
theorem flushed_eq (hbody : BodyEntry) (c : Dev nD) (t : Fin cfg0.N) :
    (dats m 0 c).flushed 3 t
      = ((cfg0.win 3).blk t).view.read (Elt Ideal) (G (V m c main_arg0) (V m c main_arg1) (V m c main_arg2)) := by
  show (cfg0.win 3).cut (grid0.coords t) ((dats m 0 c).after 3 t) = _
  rw [after0_3]
  obtain ⟨e00, e01, e02, e10, e11, e20, e21, e30, e31, e32⟩ := idx_facts t
  funext y
  obtain ⟨n, i, k, rfl⟩ : ∃ (n : Fin 16384) (i k : Fin 4), y = ix3 n i k := ⟨y 0, y 1, y 2, eq_ix3 y⟩
  show Gen.out0_3 (F := Ideal) (iblk m c 0 t) (iblk m c 1 t) (iblk m c 2 t) (ix3 n i k)
    = G (V m c main_arg0) (V m c main_arg1) (V m c main_arg2) (((cfg0.win 3).blk t).view.emb (ix3 n i k))
  refine (hbody (iblk m c 0 t) (iblk m c 1 t) (iblk m c 2 t) n i k).trans ?_
  have e3 : ((cfg0.win 3).blk t).view.emb (ix3 n i k) = ix3 (rowOf t n) i k := by
    funext a; apply Fin.ext
    match a with
    | ⟨0, _⟩ => show win0_3.index t (0 : Fin 3) * 16384 + 1 * n.val = t.val * 16384 + n.val; omega
    | ⟨1, _⟩ => show win0_3.index t (1 : Fin 3) * 4 + 1 * i.val = i.val; omega
    | ⟨2, _⟩ => show win0_3.index t (2 : Fin 3) * 4 + 1 * k.val = k.val; omega
  rw [e3, G_apply]
  have h1 : ∀ j : Fin 3, iblk m c 1 t (ix2 n j) = V m c main_arg1 (ix2 (rowOf t n) j) := by
    intro j
    show V m c main_arg1 (((cfg0.win 1).blk t).view.emb (ix2 n j)) = _
    refine congrArg _ (funext fun a => Fin.ext ?_)
    match a with
    | ⟨0, _⟩ => show win0_1.index t (0 : Fin 2) * 16384 + 1 * n.val = t.val * 16384 + n.val; omega
    | ⟨1, _⟩ => show win0_1.index t (1 : Fin 2) * 3 + 1 * j.val = j.val; omega
  have h2 : ∀ j : Fin 3, iblk m c 2 t (ix2 n j) = V m c main_arg2 (ix2 (rowOf t n) j) := by
    intro j
    show V m c main_arg2 (((cfg0.win 2).blk t).view.emb (ix2 n j)) = _
    refine congrArg _ (funext fun a => Fin.ext ?_)
    match a with
    | ⟨0, _⟩ => show win0_2.index t (0 : Fin 2) * 16384 + 1 * n.val = t.val * 16384 + n.val; omega
    | ⟨1, _⟩ => show win0_2.index t (1 : Fin 2) * 3 + 1 * j.val = j.val; omega
  have h0 : ∀ a b : Fin 4, iblk m c 0 t (ix3 n a b) = V m c main_arg0 (ix3 (rowOf t n) a b) := by
    intro a b
    show V m c main_arg0 (((cfg0.win 0).blk t).view.emb (ix3 n a b)) = _
    refine congrArg _ (funext fun d => Fin.ext ?_)
    match d with
    | ⟨0, _⟩ => show win0_0.index t (0 : Fin 3) * 16384 + 1 * n.val = t.val * 16384 + n.val; omega
    | ⟨1, _⟩ => show win0_0.index t (1 : Fin 3) * 4 + 1 * a.val = a.val; omega
    | ⟨2, _⟩ => show win0_0.index t (2 : Fin 3) * 4 + 1 * b.val = b.val; omega
  rw [funext h1, funext h2, funext fun a => funext (h0 a)]

/-- An index of the array is in point t's block iff each coordinate is in the block's range on its axis. -/
theorem mem_blk (t : Fin cfg0.N) (i : S1048576x4x4.Idx) :
    i ∈ ((cfg0.win 3).blk t).view.set ↔ ∀ a : Fin 3, win0_3.index t a * S16384x4x4.size a ≤ (i a).val ∧ (i a).val < win0_3.index t a * S16384x4x4.size a + S16384x4x4.size a := by
  show i ∈ ((View.whole main_v0).slice (win0_3.rect t)).set ↔ _
  rw [View.set_slice_whole, Rect.mem_set_unit]
  exact Iff.rfl

/-- Every index of the result array lies in some point's block: row N in block N / 16384. -/
theorem cover (i : S1048576x4x4.Idx) :
    ∃ t : Fin cfg0.N, (cfg0.win 3).flush t = true ∧ i ∈ ((cfg0.win 3).blk t).view.set := by
  have hi0 : (i 0).val < 1048576 := (i 0).isLt
  have hi1 : (i 1).val < 4 := (i 1).isLt
  have hi2 : (i 2).val < 4 := (i 2).isLt
  let t : Fin cfg0.N := ⟨(i 0).val / 16384, by show (i 0).val / 16384 < 64; omega⟩
  obtain ⟨e00, e01, e02, e10, e11, e20, e21, e30, e31, e32⟩ := idx_facts t
  have ht : t.val = (i 0).val / 16384 := rfl
  refine ⟨t, flush0_3 t, ?_⟩
  rw [mem_blk]
  intro a
  match a with
  | ⟨0, _⟩ => show win0_3.index t (0 : Fin 3) * 16384 ≤ (i 0).val ∧ (i 0).val < win0_3.index t (0 : Fin 3) * 16384 + 16384; omega
  | ⟨1, _⟩ => show win0_3.index t (1 : Fin 3) * 4 ≤ (i 1).val ∧ (i 1).val < win0_3.index t (1 : Fin 3) * 4 + 4; omega
  | ⟨2, _⟩ => show win0_3.index t (2 : Fin 3) * 4 ≤ (i 2).val ∧ (i 2).val < win0_3.index t (2 : Fin 3) * 4 + 4; omega

/-- The result array after the run is `G` of the argument arrays. -/
theorem final (hbody : BodyEntry) (c : Dev nD) :
    (dats m 0 c).arrAt 3 cfg0.N
      = G (m ((c : Thread nD τ).loc main_arg0)) (m ((c : Thread nD τ).loc main_arg1)) (m ((c : Thread nD τ).loc main_arg2)) :=
  (dats m 0 c).arrAt_eq_of_cover 3 (G (V m c main_arg0) (V m c main_arg1) (V m c main_arg2))
    (fun t _ => flushed_eq m hbody c t) cover

/-- The kernel's run: every weakly fair execution terminates with the result array at `G` of the arguments and the
    arguments unchanged. -/
theorem run (hbody : BodyEntry) : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final m hbody c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.PoseArray

end
-- ==== Proof.RefTerm.lean ====
/-
  The reference's result as one pure term of its three argument arrays, stage by stage.

  r : [N,3] is cut into its three columns; the rows (0, −r₂, r₁), (r₂, 0, −r₀), (−r₁, r₀, 0) are joined into the
  skew matrices K : [N,3,3]; θ = √(Σ r²) + ε is laid out as [N,1,1]; the identity comes from comparing two iotas;
  R = (I + (sin θ / θ)·K) + ((1 − cos θ)/θ²)·(K·K); t is appended as a fourth column and the literal row
  (0,0,0,1) as a fourth row; the result is the batched product of that [N,4,4] array with the poses.
  Each definition is the operation list's own term for that buffer, so the run's composed term is `out` by unfolding.
-/
import proofs.«146500_j21268678050229_1_alg».proof.Proof.Gen.ReferenceIdeal

noncomputable section

namespace Cert.ReferenceIdeal.PoseTerm

open Cert.ReferenceIdeal Cert.ReferenceIdeal.Gen Idealize.ShloMosaic

variable {F : FTy → Type} [FloatOps F]

/-- The all-zero vector of length N. -/
def zeroN : FVec F S1048576 .f32 :=
  broadcastInDim S1048576 ![] bcast_S_S1048576 (constant S_ .f32 0x00000000#32)

/-- Column 0 of r as a vector. -/
def col0 (r : FVec F S1048576x3 .f32) : FVec F S1048576 .f32 :=
  shapeCast S1048576 (extractStridedSlice S1048576x1 ![0, 0] r slices_S1048576x3_S1048576x1_0_0) shapeCasts_S1048576x1_S1048576
/-- Column 1 of r as a vector. -/
def col1 (r : FVec F S1048576x3 .f32) : FVec F S1048576 .f32 :=
  shapeCast S1048576 (extractStridedSlice S1048576x1 ![0, 1] r slices_S1048576x3_S1048576x1_0_1) shapeCasts_S1048576x1_S1048576
/-- Column 2 of r as a vector. -/
def col2 (r : FVec F S1048576x3 .f32) : FVec F S1048576 .f32 :=
  shapeCast S1048576 (extractStridedSlice S1048576x1 ![0, 2] r slices_S1048576x3_S1048576x1_0_2) shapeCasts_S1048576x1_S1048576

/-- A vector as an [N,1] column. -/
def asCol (v : FVec F S1048576 .f32) : FVec F S1048576x1 .f32 :=
  broadcastInDim S1048576x1 ![0] bcast_S1048576_S1048576x1_0 v

/-- Three vectors side by side: an [N,3] array. -/
def row3 (a b c : FVec F S1048576 .f32) : FVec F S1048576x3 .f32 :=
  concatenate S1048576x3 1 [⟨S1048576x1, asCol a⟩, ⟨S1048576x1, asCol b⟩, ⟨S1048576x1, asCol c⟩]
    concatenates_S1048576x1_S1048576x1_S1048576x1_S1048576x3_d1

/-- An [N,3] array as an [N,1,3] slab. -/
def asSlab (v : FVec F S1048576x3 .f32) : FVec F S1048576x1x3 .f32 :=
  broadcastInDim S1048576x1x3 ![0, 2] bcast_S1048576x3_S1048576x1x3_0_2 v

/-- The skew matrices K : [N,3,3]. -/
def skewM (r : FVec F S1048576x3 .f32) : FVec F S1048576x3x3 .f32 :=
  concatenate S1048576x3x3 1
    [⟨S1048576x1x3, asSlab (row3 zeroN (Host.negf (col2 r)) (col1 r))⟩,
     ⟨S1048576x1x3, asSlab (row3 (col2 r) zeroN (Host.negf (col0 r)))⟩,
     ⟨S1048576x1x3, asSlab (row3 (Host.negf (col1 r)) (col0 r) zeroN)⟩]
    concatenates_S1048576x1x3_S1048576x1x3_S1048576x1x3_S1048576x3x3_d1

/-- θ = √(Σ r²) + ε, one per row. -/
def thetaN (r : FVec F S1048576x3 .f32) : FVec F S1048576 .f32 :=
  addf (Host.sqrt (Host.reduceAdd (mulf r r) (constant S_ .f32 0x00000000#32) reducesTo_S1048576x3_S1048576_d1 h_S_))
    (broadcastInDim S1048576 ![] bcast_S_S1048576 (constant S_ .f32 0x26901D7D#32))

/-- θ laid out [N,1,1]. -/
def theta3 (r : FVec F S1048576x3 .f32) : FVec F S1048576x1x1 .f32 :=
  broadcastInDim S1048576x1x1 ![0] bcast_S1048576_S1048576x1x1_0 (thetaN r)

/-- The 3×3 identity from two iotas. -/
def eyeM : FVec F S3x3 .f32 :=
  uitofp .f32 (cmpi .eq (addi (iotaInDim S3x3 32 0) (broadcastInDim S3x3 ![] bcast_S_S3x3 (constantI S_ 32 0#32)))
    (iotaInDim S3x3 32 1))

/-- An [N,1,1] array spread over [N,3,3]. -/
def spread (v : FVec F S1048576x1x1 .f32) : FVec F S1048576x3x3 .f32 :=
  broadcastInDim S1048576x3x3 ![0, 1, 2] bcast_S1048576x1x1_S1048576x3x3_0_1_2 v

/-- The rotations R = (I + (sin θ/θ)·K) + ((1 − cos θ)/θ²)·(K·K) : [N,3,3]. -/
def rotM (r : FVec F S1048576x3 .f32) : FVec F S1048576x3x3 .f32 :=
  addf
    (addf
      (broadcastInDim S1048576x3x3 ![0, 1, 2] bcast_S1x3x3_S1048576x3x3_0_1_2
        (broadcastInDim S1x3x3 ![1, 2] bcast_S3x3_S1x3x3_1_2 (eyeM (F := F))))
      (mulf (spread (Host.divf (Host.sin (theta3 r)) (theta3 r))) (skewM r)))
    (mulf
      (spread (Host.divf
        (subf (broadcastInDim S1048576x1x1 ![] bcast_S_S1048576x1x1 (constant S_ .f32 0x3F800000#32)) (Host.cos (theta3 r)))
        (mulf (theta3 r) (theta3 r))))
      (Host.dotGeneral dot_S1048576x3x3_S1048576x3x3_S1048576x3x3_2_1_1_2_0_0 none (skewM r) (skewM r)))

/-- The camera matrices [R | t; 0 0 0 1] : [N,4,4]. -/
def camM (r t : FVec F S1048576x3 .f32) : FVec F S1048576x4x4 .f32 :=
  concatenate S1048576x4x4 1
    [⟨S1048576x3x4, concatenate S1048576x3x4 2
        [⟨S1048576x3x3, rotM r⟩,
         ⟨S1048576x3x1, broadcastInDim S1048576x3x1 ![0, 1] bcast_S1048576x3_S1048576x3x1_0_1 t⟩]
        concatenates_S1048576x3x3_S1048576x3x1_S1048576x3x4_d2⟩,
     ⟨S1048576x1x4, broadcastInDim S1048576x1x4 ![0, 1, 2] bcast_S1x1x4_S1048576x1x4_0_1_2
        (broadcastInDim S1x1x4 ![2] bcast_S4_S1x1x4_2 (fun i => FloatOps.ofBits .f32 (lit0 (S4.rowMajor i))))⟩]
    concatenates_S1048576x3x4_S1048576x1x4_S1048576x4x4_d1

/-- The result: the batched product of the camera matrices with the poses. -/
def out (p : FVec F S1048576x4x4 .f32) (r t : FVec F S1048576x3 .f32) : FVec F S1048576x4x4 .f32 :=
  Host.dotGeneral dot_S1048576x4x4_S1048576x4x4_S1048576x4x4_2_1_1_2_0_0 none (camM r t) p

end Cert.ReferenceIdeal.PoseTerm

end
-- ==== Proof.RefRun.lean ====
/-
  The reference program run as a straight line of host operations.

  @main, with the norm helper's four operations written out at its call, is a list of 68 operations; every weakly fair
  execution performs them in order and terminates, each buffer ending at the fold of the operations over the launch
  contents.  Read at the result buffer, that fold is the composed term `PoseTerm.out` of the three argument arrays; read
  at an argument buffer it is the argument, since no operation writes one.
-/
import proofs.«146500_j21268678050229_1_alg».proof.Proof.RefTerm
import Idealize.ShloMosaic.Lib.StableHlo.Run

noncomputable section

namespace Cert.ReferenceIdeal.PoseRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the norm helper's inlined at its call over that call's buffers. -/
abbrev ops : List (HloOp τ sig (Elt F)) :=
  [
    StableHlo.nullary main_cst (fun i => FloatOps.ofBits .f32 (lit0 (S4.rowMajor i))),
    StableHlo.unary main_arg1 main_v0 ((extractStridedSlice S1048576x1 ![0, 0] · slices_S1048576x3_S1048576x1_0_0) : (⟨S1048576x3, .f32⟩ : BufTy).Contents (Elt F) → (⟨S1048576x1, .f32⟩ : BufTy).Contents (Elt F)),
    StableHlo.reshape main_v0 main_v1 rfl shapeCasts_S1048576x1_S1048576,
    StableHlo.nullary main_cst_0 (constant S_ .f32 0x00000000#32),
    StableHlo.unary main_cst_0 main_v2 (broadcastInDim S1048576 ![] bcast_S_S1048576 : (⟨S_, .f32⟩ : BufTy).Contents (Elt F) → (⟨S1048576, .f32⟩ : BufTy).Contents (Elt F)),
    StableHlo.unary main_arg1 main_v3 ((extractStridedSlice S1048576x1 ![0, 0] · slices_S1048576x3_S1048576x1_0_0) : (⟨S1048576x3, .f32⟩ : BufTy).Contents (Elt F) → (⟨S1048576x1, .f32⟩ : BufTy).Contents (Elt F)),
    StableHlo.reshape main_v3 main_v4 rfl shapeCasts_S1048576x1_S1048576,
    StableHlo.unary main_arg1 main_v5 ((extractStridedSlice S1048576x1 ![0, 1] · slices_S1048576x3_S1048576x1_0_1) : (⟨S1048576x3, .f32⟩ : BufTy).Contents (Elt F) → (⟨S1048576x1, .f32⟩ : BufTy).Contents (Elt F)),
    StableHlo.reshape main_v5 main_v6 rfl shapeCasts_S1048576x1_S1048576,
    StableHlo.unary main_arg1 main_v7 ((extractStridedSlice S1048576x1 ![0, 2] · slices_S1048576x3_S1048576x1_0_2) : (⟨S1048576x3, .f32⟩ : BufTy).Contents (Elt F) → (⟨S1048576x1, .f32⟩ : BufTy).Contents (Elt F)),
    StableHlo.reshape main_v7 main_v8 rfl shapeCasts_S1048576x1_S1048576,
    StableHlo.unary main_v8 main_v9 (Host.negf : (⟨S1048576, .f32⟩ : BufTy).Contents (Elt F) → (⟨S1048576, .f32⟩ : BufTy).Contents (Elt F)),
    StableHlo.unary main_v2 main_v10 (broadcastInDim S1048576x1 ![0] bcast_S1048576_S1048576x1_0 : (⟨S1048576, .f32⟩ : BufTy).Contents (Elt F) → (⟨S1048576x1, .f32⟩ : BufTy).Contents (Elt F)),
    StableHlo.unary main_v9 main_v11 (broadcastInDim S1048576x1 ![0] bcast_S1048576_S1048576x1_0 : (⟨S1048576, .f32⟩ : BufTy).Contents (Elt F) → (⟨S1048576x1, .f32⟩ : BufTy).Contents (Elt F)),
    StableHlo.unary main_v6 main_v12 (broadcastInDim S1048576x1 ![0] bcast_S1048576_S1048576x1_0 : (⟨S1048576, .f32⟩ : BufTy).Contents (Elt F) → (⟨S1048576x1, .f32⟩ : BufTy).Contents (Elt F)),
    StableHlo.nary ![main_v10, main_v11, main_v12] main_v13 (fun u => concatenate S1048576x3 1 [⟨S1048576x1, u 0⟩, ⟨S1048576x1, u 1⟩, ⟨S1048576x1, u 2⟩] concatenates_S1048576x1_S1048576x1_S1048576x1_S1048576x3_d1),
    StableHlo.unary main_v4 main_v14 (Host.negf : (⟨S1048576, .f32⟩ : BufTy).Contents (Elt F) → (⟨S1048576, .f32⟩ : BufTy).Contents (Elt F)),
    StableHlo.unary main_v8 main_v15 (broadcastInDim S1048576x1 ![0] bcast_S1048576_S1048576x1_0 : (⟨S1048576, .f32⟩ : BufTy).Contents (Elt F) → (⟨S1048576x1, .f32⟩ : BufTy).Contents (Elt F)),
    StableHlo.unary main_v2 main_v16 (broadcastInDim S1048576x1 ![0] bcast_S1048576_S1048576x1_0 : (⟨S1048576, .f32⟩ : BufTy).Contents (Elt F) → (⟨S1048576x1, .f32⟩ : BufTy).Contents (Elt F)),
    StableHlo.unary main_v14 main_v17 (broadcastInDim S1048576x1 ![0] bcast_S1048576_S1048576x1_0 : (⟨S1048576, .f32⟩ : BufTy).Contents (Elt F) → (⟨S1048576x1, .f32⟩ : BufTy).Contents (Elt F)),
    StableHlo.nary ![main_v15, main_v16, main_v17] main_v18 (fun u => concatenate S1048576x3 1 [⟨S1048576x1, u 0⟩, ⟨S1048576x1, u 1⟩, ⟨S1048576x1, u 2⟩] concatenates_S1048576x1_S1048576x1_S1048576x1_S1048576x3_d1),
    StableHlo.unary main_v6 main_v19 (Host.negf : (⟨S1048576, .f32⟩ : BufTy).Contents (Elt F) → (⟨S1048576, .f32⟩ : BufTy).Contents (Elt F)),
    StableHlo.unary main_v19 main_v20 (broadcastInDim S1048576x1 ![0] bcast_S1048576_S1048576x1_0 : (⟨S1048576, .f32⟩ : BufTy).Contents (Elt F) → (⟨S1048576x1, .f32⟩ : BufTy).Contents (Elt F)),
    StableHlo.unary main_v4 main_v21 (broadcastInDim S1048576x1 ![0] bcast_S1048576_S1048576x1_0 : (⟨S1048576, .f32⟩ : BufTy).Contents (Elt F) → (⟨S1048576x1, .f32⟩ : BufTy).Contents (Elt F)),
    StableHlo.unary main_v2 main_v22 (broadcastInDim S1048576x1 ![0] bcast_S1048576_S1048576x1_0 : (⟨S1048576, .f32⟩ : BufTy).Contents (Elt F) → (⟨S1048576x1, .f32⟩ : BufTy).Contents (Elt F)),
    StableHlo.nary ![main_v20, main_v21, main_v22] main_v23 (fun u => concatenate S1048576x3 1 [⟨S1048576x1, u 0⟩, ⟨S1048576x1, u 1⟩, ⟨S1048576x1, u 2⟩] concatenates_S1048576x1_S1048576x1_S1048576x1_S1048576x3_d1),
    StableHlo.unary main_v13 main_v24 (broadcastInDim S1048576x1x3 ![0, 2] bcast_S1048576x3_S1048576x1x3_0_2 : (⟨S1048576x3, .f32⟩ : BufTy).Contents (Elt F) → (⟨S1048576x1x3, .f32⟩ : BufTy).Contents (Elt F)),
    StableHlo.unary main_v18 main_v25 (broadcastInDim S1048576x1x3 ![0, 2] bcast_S1048576x3_S1048576x1x3_0_2 : (⟨S1048576x3, .f32⟩ : BufTy).Contents (Elt F) → (⟨S1048576x1x3, .f32⟩ : BufTy).Contents (Elt F)),
    StableHlo.unary main_v23 main_v26 (broadcastInDim S1048576x1x3 ![0, 2] bcast_S1048576x3_S1048576x1x3_0_2 : (⟨S1048576x3, .f32⟩ : BufTy).Contents (Elt F) → (⟨S1048576x1x3, .f32⟩ : BufTy).Contents (Elt F)),
    StableHlo.nary ![main_v24, main_v25, main_v26] main_v27 (fun u => concatenate S1048576x3x3 1 [⟨S1048576x1x3, u 0⟩, ⟨S1048576x1x3, u 1⟩, ⟨S1048576x1x3, u 2⟩] concatenates_S1048576x1x3_S1048576x1x3_S1048576x1x3_S1048576x3x3_d1),
    StableHlo.TRef.binary (.of main_arg1) (.of main_arg1) main_call0.v0 mulf,
    StableHlo.TRef.nullary main_call0.cst (constant S_ .f32 0x00000000#32),
    StableHlo.TRef.binary main_call0.v0 main_call0.cst main_call0.v1 (fun x v => Host.reduceAdd x v reducesTo_S1048576x3_S1048576_d1 h_S_),
    StableHlo.TRef.unary main_call0.v1 main_call0.v2 Host.sqrt,
    StableHlo.nullary main_cst_1 (constant S_ .f32 0x26901D7D#32),
    StableHlo.unary main_cst_1 main_v29 (broadcastInDim S1048576 ![] bcast_S_S1048576 : (⟨S_, .f32⟩ : BufTy).Contents (Elt F) → (⟨S1048576, .f32⟩ : BufTy).Contents (Elt F)),
    StableHlo.binary main_v28 main_v29 main_v30 (addf : (⟨S1048576, .f32⟩ : BufTy).Contents (Elt F) → (⟨S1048576, .f32⟩ : BufTy).Contents (Elt F) → (⟨S1048576, .f32⟩ : BufTy).Contents (Elt F)),
    StableHlo.unary main_v30 main_v31 (broadcastInDim S1048576x1x1 ![0] bcast_S1048576_S1048576x1x1_0 : (⟨S1048576, .f32⟩ : BufTy).Contents (Elt F) → (⟨S1048576x1x1, .f32⟩ : BufTy).Contents (Elt F)),
    StableHlo.nullary main_v32 (iotaInDim S3x3 32 0),
    StableHlo.nullary main_v33 (iotaInDim S3x3 32 1),
    StableHlo.nullary main_c (constantI S_ 32 0#32),
    StableHlo.unary main_c main_v34 (broadcastInDim S3x3 ![] bcast_S_S3x3 : (⟨S_, .i32⟩ : BufTy).Contents (Elt F) → (⟨S3x3, .i32⟩ : BufTy).Contents (Elt F)),
    StableHlo.binary main_v32 main_v34 main_v35 (addi : (⟨S3x3, .i32⟩ : BufTy).Contents (Elt F) → (⟨S3x3, .i32⟩ : BufTy).Contents (Elt F) → (⟨S3x3, .i32⟩ : BufTy).Contents (Elt F)),
    StableHlo.binary main_v35 main_v33 main_v36 (cmpi .eq : (⟨S3x3, .i32⟩ : BufTy).Contents (Elt F) → (⟨S3x3, .i32⟩ : BufTy).Contents (Elt F) → (⟨S3x3, .i1⟩ : BufTy).Contents (Elt F)),
    StableHlo.unary main_v36 main_v37 (uitofp .f32 : (⟨S3x3, .i1⟩ : BufTy).Contents (Elt F) → (⟨S3x3, .f32⟩ : BufTy).Contents (Elt F)),
    StableHlo.binary main_v27 main_v27 main_v38 ((fun l r => Host.dotGeneral dot_S1048576x3x3_S1048576x3x3_S1048576x3x3_2_1_1_2_0_0 none l r) : (⟨S1048576x3x3, .f32⟩ : BufTy).Contents (Elt F) → (⟨S1048576x3x3, .f32⟩ : BufTy).Contents (Elt F) → (⟨S1048576x3x3, .f32⟩ : BufTy).Contents (Elt F)),
    StableHlo.unary main_v31 main_v39 (Host.sin : (⟨S1048576x1x1, .f32⟩ : BufTy).Contents (Elt F) → (⟨S1048576x1x1, .f32⟩ : BufTy).Contents (Elt F)),
    StableHlo.binary main_v39 main_v31 main_v40 (Host.divf : (⟨S1048576x1x1, .f32⟩ : BufTy).Contents (Elt F) → (⟨S1048576x1x1, .f32⟩ : BufTy).Contents (Elt F) → (⟨S1048576x1x1, .f32⟩ : BufTy).Contents (Elt F)),
    StableHlo.unary main_v40 main_v41 (broadcastInDim S1048576x3x3 ![0, 1, 2] bcast_S1048576x1x1_S1048576x3x3_0_1_2 : (⟨S1048576x1x1, .f32⟩ : BufTy).Contents (Elt F) → (⟨S1048576x3x3, .f32⟩ : BufTy).Contents (Elt F)),
    StableHlo.binary main_v41 main_v27 main_v42 (mulf : (⟨S1048576x3x3, .f32⟩ : BufTy).Contents (Elt F) → (⟨S1048576x3x3, .f32⟩ : BufTy).Contents (Elt F) → (⟨S1048576x3x3, .f32⟩ : BufTy).Contents (Elt F)),
    StableHlo.unary main_v37 main_v43 (broadcastInDim S1x3x3 ![1, 2] bcast_S3x3_S1x3x3_1_2 : (⟨S3x3, .f32⟩ : BufTy).Contents (Elt F) → (⟨S1x3x3, .f32⟩ : BufTy).Contents (Elt F)),
    StableHlo.unary main_v43 main_v44 (broadcastInDim S1048576x3x3 ![0, 1, 2] bcast_S1x3x3_S1048576x3x3_0_1_2 : (⟨S1x3x3, .f32⟩ : BufTy).Contents (Elt F) → (⟨S1048576x3x3, .f32⟩ : BufTy).Contents (Elt F)),
    StableHlo.binary main_v44 main_v42 main_v45 (addf : (⟨S1048576x3x3, .f32⟩ : BufTy).Contents (Elt F) → (⟨S1048576x3x3, .f32⟩ : BufTy).Contents (Elt F) → (⟨S1048576x3x3, .f32⟩ : BufTy).Contents (Elt F)),
    StableHlo.unary main_v31 main_v46 (Host.cos : (⟨S1048576x1x1, .f32⟩ : BufTy).Contents (Elt F) → (⟨S1048576x1x1, .f32⟩ : BufTy).Contents (Elt F)),
    StableHlo.nullary main_cst_2 (constant S_ .f32 0x3F800000#32),
    StableHlo.unary main_cst_2 main_v47 (broadcastInDim S1048576x1x1 ![] bcast_S_S1048576x1x1 : (⟨S_, .f32⟩ : BufTy).Contents (Elt F) → (⟨S1048576x1x1, .f32⟩ : BufTy).Contents (Elt F)),
    StableHlo.binary main_v47 main_v46 main_v48 (subf : (⟨S1048576x1x1, .f32⟩ : BufTy).Contents (Elt F) → (⟨S1048576x1x1, .f32⟩ : BufTy).Contents (Elt F) → (⟨S1048576x1x1, .f32⟩ : BufTy).Contents (Elt F)),
    StableHlo.binary main_v31 main_v31 main_v49 (mulf : (⟨S1048576x1x1, .f32⟩ : BufTy).Contents (Elt F) → (⟨S1048576x1x1, .f32⟩ : BufTy).Contents (Elt F) → (⟨S1048576x1x1, .f32⟩ : BufTy).Contents (Elt F)),
    StableHlo.binary main_v48 main_v49 main_v50 (Host.divf : (⟨S1048576x1x1, .f32⟩ : BufTy).Contents (Elt F) → (⟨S1048576x1x1, .f32⟩ : BufTy).Contents (Elt F) → (⟨S1048576x1x1, .f32⟩ : BufTy).Contents (Elt F)),
    StableHlo.unary main_v50 main_v51 (broadcastInDim S1048576x3x3 ![0, 1, 2] bcast_S1048576x1x1_S1048576x3x3_0_1_2 : (⟨S1048576x1x1, .f32⟩ : BufTy).Contents (Elt F) → (⟨S1048576x3x3, .f32⟩ : BufTy).Contents (Elt F)),
    StableHlo.binary main_v51 main_v38 main_v52 (mulf : (⟨S1048576x3x3, .f32⟩ : BufTy).Contents (Elt F) → (⟨S1048576x3x3, .f32⟩ : BufTy).Contents (Elt F) → (⟨S1048576x3x3, .f32⟩ : BufTy).Contents (Elt F)),
    StableHlo.binary main_v45 main_v52 main_v53 (addf : (⟨S1048576x3x3, .f32⟩ : BufTy).Contents (Elt F) → (⟨S1048576x3x3, .f32⟩ : BufTy).Contents (Elt F) → (⟨S1048576x3x3, .f32⟩ : BufTy).Contents (Elt F)),
    StableHlo.unary main_arg2 main_v54 (broadcastInDim S1048576x3x1 ![0, 1] bcast_S1048576x3_S1048576x3x1_0_1 : (⟨S1048576x3, .f32⟩ : BufTy).Contents (Elt F) → (⟨S1048576x3x1, .f32⟩ : BufTy).Contents (Elt F)),
    StableHlo.binary main_v53 main_v54 main_v55 ((fun a b => concatenate S1048576x3x4 2 [⟨S1048576x3x3, a⟩, ⟨S1048576x3x1, b⟩] concatenates_S1048576x3x3_S1048576x3x1_S1048576x3x4_d2) : (⟨S1048576x3x3, .f32⟩ : BufTy).Contents (Elt F) → (⟨S1048576x3x1, .f32⟩ : BufTy).Contents (Elt F) → (⟨S1048576x3x4, .f32⟩ : BufTy).Contents (Elt F)),
    StableHlo.unary main_cst main_v56 (broadcastInDim S1x1x4 ![2] bcast_S4_S1x1x4_2 : (⟨S4, .f32⟩ : BufTy).Contents (Elt F) → (⟨S1x1x4, .f32⟩ : BufTy).Contents (Elt F)),
    StableHlo.unary main_v56 main_v57 (broadcastInDim S1048576x1x4 ![0, 1, 2] bcast_S1x1x4_S1048576x1x4_0_1_2 : (⟨S1x1x4, .f32⟩ : BufTy).Contents (Elt F) → (⟨S1048576x1x4, .f32⟩ : BufTy).Contents (Elt F)),
    StableHlo.binary main_v55 main_v57 main_v58 ((fun a b => concatenate S1048576x4x4 1 [⟨S1048576x3x4, a⟩, ⟨S1048576x1x4, b⟩] concatenates_S1048576x3x4_S1048576x1x4_S1048576x4x4_d1) : (⟨S1048576x3x4, .f32⟩ : BufTy).Contents (Elt F) → (⟨S1048576x1x4, .f32⟩ : BufTy).Contents (Elt F) → (⟨S1048576x4x4, .f32⟩ : BufTy).Contents (Elt F)),
    StableHlo.binary main_v58 main_arg0 main_v59 ((fun l r => Host.dotGeneral dot_S1048576x4x4_S1048576x4x4_S1048576x4x4_2_1_1_2_0_0 none l r) : (⟨S1048576x4x4, .f32⟩ : BufTy).Contents (Elt F) → (⟨S1048576x4x4, .f32⟩ : BufTy).Contents (Elt F) → (⟨S1048576x4x4, .f32⟩ : BufTy).Contents (Elt F)) ]

set_option maxRecDepth 4096 in
/-- @main is that straight line: the two halves and the helper's body unfolded, sequencing reassociated. -/
theorem main_eq (c : Dev nD) : main (F := F) c = seq ops := by
  simp only [main, main_part0, main_part1, fn_norm.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨
    nullary_bufs_sub .., unary_bufs_sub .., reshape_bufs_sub .., nullary_bufs_sub .., unary_bufs_sub .., unary_bufs_sub ..,
    reshape_bufs_sub .., unary_bufs_sub .., reshape_bufs_sub .., unary_bufs_sub .., reshape_bufs_sub .., unary_bufs_sub ..,
    unary_bufs_sub .., unary_bufs_sub .., unary_bufs_sub .., nary_bufs_sub .., unary_bufs_sub .., unary_bufs_sub ..,
    unary_bufs_sub .., unary_bufs_sub .., nary_bufs_sub .., unary_bufs_sub .., unary_bufs_sub .., unary_bufs_sub ..,
    unary_bufs_sub .., nary_bufs_sub .., unary_bufs_sub .., unary_bufs_sub .., unary_bufs_sub .., nary_bufs_sub ..,
    binary_bufs_sub .., nullary_bufs_sub .., binary_bufs_sub .., unary_bufs_sub .., nullary_bufs_sub .., unary_bufs_sub ..,
    binary_bufs_sub .., unary_bufs_sub .., nullary_bufs_sub .., nullary_bufs_sub .., nullary_bufs_sub .., unary_bufs_sub ..,
    binary_bufs_sub .., binary_bufs_sub .., unary_bufs_sub .., binary_bufs_sub .., unary_bufs_sub .., binary_bufs_sub ..,
    unary_bufs_sub .., binary_bufs_sub .., unary_bufs_sub .., unary_bufs_sub .., binary_bufs_sub .., unary_bufs_sub ..,
    nullary_bufs_sub .., unary_bufs_sub .., binary_bufs_sub .., binary_bufs_sub .., binary_bufs_sub .., unary_bufs_sub ..,
    binary_bufs_sub .., binary_bufs_sub .., unary_bufs_sub .., binary_bufs_sub .., unary_bufs_sub .., unary_bufs_sub ..,
    binary_bufs_sub .., binary_bufs_sub ..⟩

/-- Every weakly fair execution of @main terminates with each TensorCore buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.PoseRun

end
-- ==== Proof.RefResult.lean ====
/-
  What the reference's run leaves: the result buffer at the composed term `PoseTerm.out` of the launch contents of the
  three arguments, the arguments as launched.  The fold of the operation list is read one operation at a time: each
  operation's result at its own buffer is its function of its operands' contents, and at any other buffer what was there.
-/
import proofs.«146500_j21268678050229_1_alg».proof.Proof.RefRun

noncomputable section

namespace Cert.ReferenceIdeal.PoseRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceAdd concatenate broadcastInDim extractStridedSlice shapeCast in
set_option maxRecDepth 8192 in
set_option maxHeartbeats 1000000 in
/-- The fold at the result buffer is the composed term. -/
theorem out_eq (V : Valuation τ sig (Elt F)) :
    after ops V (main_v59 : DevRef τ sig)
      = PoseTerm.out (V (main_arg0 : DevRef τ sig)) (V (main_arg1 : DevRef τ sig)) (V (main_arg2 : DevRef τ sig)) := by
  simp only [after_cons, after_nil]
  rfl

set_option maxRecDepth 8192 in
theorem arg0_eq (V : Valuation τ sig (Elt F)) : after ops V (main_arg0 : DevRef τ sig) = V (main_arg0 : DevRef τ sig) := by
  simp only [after_cons, after_nil]
  rfl
set_option maxRecDepth 8192 in
theorem arg1_eq (V : Valuation τ sig (Elt F)) : after ops V (main_arg1 : DevRef τ sig) = V (main_arg1 : DevRef τ sig) := by
  simp only [after_cons, after_nil]
  rfl
set_option maxRecDepth 8192 in
theorem arg2_eq (V : Valuation τ sig (Elt F)) : after ops V (main_arg2 : DevRef τ sig) = V (main_arg2 : DevRef τ sig) := by
  simp only [after_cons, after_nil]
  rfl

/-- Every weakly fair execution of the reference terminates with its result at `PoseTerm.out` of the arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59)
        = PoseTerm.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v59).trans (out_eq _), (h c main_arg0).trans (arg0_eq _),
      (h c main_arg1).trans (arg1_eq _), (h c main_arg2).trans (arg2_eq _)⟩)
    (run_fold m ρ)

end Cert.ReferenceIdeal.PoseRun

end
-- ==== Proof.RefRot.lean ====
/-
  The reference's rotation array read at an entry.

  Each stage of the host term is read at one index, outermost operation first: a slice and a shape cast name one source
  coordinate, a broadcast forgets the new axes, a concatenation of unit pieces picks the piece its axis coordinate names,
  the row sum is the literal zero plus the three squares, and the batched product is a three-term sum over the
  contracted coordinate with the batch coordinate carried along.  Put together, K at (n, i, j) is the skew matrix of
  row n of r, θ at (n, 0, 0) is √(Σ r²) + ε, and R at (n, i, j) is Rodrigues' formula term by term.
-/
import proofs.«146500_j21268678050229_1_alg».proof.Proof.RefTerm
import proofs.«146500_j21268678050229_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

namespace Cert.ReferenceIdeal.PoseRead

open Cert.ReferenceIdeal Cert.ReferenceIdeal.Gen Idealize.ShloMosaic Idealize.ShloMosaic.ValueIdx

/-! ## The columns of r, and the layout steps -/

/-- An [N,1] array cast to [N] reads, at n, the operand at (n, 0): the two row-major positions are n·1 + 0 and n. -/
theorem cast_col_apply (x : FVec Ideal S1048576x1 .f32) (n : Fin 1048576) :
    shapeCast S1048576 x shapeCasts_S1048576x1_S1048576 (ix1 n) = x (ix2 n (0 : Fin 1)) :=
  shapeCast_apply x _ _ _ (by
    rw [Shape.rowMajor_val_two, Shape.rowMajor_val_one]
    show n.val * 1 + 0 = n.val
    omega)

/-- Column 0 of r at n is r at (n, 0): the slice shifts the column coordinate by its offset 0. -/
theorem col0_entry (r : FVec Ideal S1048576x3 .f32) (n : Fin 1048576) :
    PoseTerm.col0 (F := Ideal) r (ix1 n) = r (ix2 n (0 : Fin 3)) := by
  unfold PoseTerm.col0
  rw [cast_col_apply]
  exact slice2_axis1_apply 0 r _ n (0 : Fin 1) (0 : Fin 3) rfl

/-- Column 1 of r at n is r at (n, 1). -/
theorem col1_entry (r : FVec Ideal S1048576x3 .f32) (n : Fin 1048576) :
    PoseTerm.col1 (F := Ideal) r (ix1 n) = r (ix2 n (1 : Fin 3)) := by
  unfold PoseTerm.col1
  rw [cast_col_apply]
  exact slice2_axis1_apply 1 r _ n (0 : Fin 1) (1 : Fin 3) rfl

/-- Column 2 of r at n is r at (n, 2). -/
theorem col2_entry (r : FVec Ideal S1048576x3 .f32) (n : Fin 1048576) :
    PoseTerm.col2 (F := Ideal) r (ix1 n) = r (ix2 n (2 : Fin 3)) := by
  unfold PoseTerm.col2
  rw [cast_col_apply]
  exact slice2_axis1_apply 2 r _ n (0 : Fin 1) (2 : Fin 3) rfl

/-- A vector laid out as a column reads the vector at the row coordinate. -/
theorem asCol_entry (v : FVec Ideal S1048576 .f32) (n : Fin 1048576) (a : Fin 1) :
    PoseTerm.asCol (F := Ideal) v (ix2 n a) = v (ix1 n) := by
  unfold PoseTerm.asCol
  exact broadcastInDim_apply _ _ v _ (ix1 n) (fun c => match c with | ⟨0, _⟩ => rfl)

/-- The all-zero vector reads the literal zero. -/
theorem zeroN_entry (n : Fin 1048576) : PoseTerm.zeroN (F := Ideal) (ix1 n) = Cert.Pose.zero := by
  unfold PoseTerm.zeroN
  rw [broadcastInDim_scalar_apply]
  rfl

/-- Three vectors side by side read, at (n, c), the c-th of them at n: piece c of the concatenation along the column
    axis has extent one, so the column coordinate names the piece and the coordinate inside it is 0. -/
theorem row3_entry (a b c : FVec Ideal S1048576 .f32) (n : Fin 1048576) (j : Fin 3) :
    PoseTerm.row3 (F := Ideal) a b c (ix2 n j) = ![a (ix1 n), b (ix1 n), c (ix1 n)] j := by
  unfold PoseTerm.row3
  have hi : ∀ (q : Fin 3) (e : Fin S1048576x1.rank), e.cast (rfl : S1048576x1.rank = S1048576x3.rank) ≠ (1 : Fin 2) →
      ((ix2 n (0 : Fin 1) : S1048576x1.Idx) e).val = ((ix2 n q : S1048576x3.Idx) (e.cast rfl)).val := fun q e =>
    match e with
    | ⟨0, _⟩ => fun _ => rfl
    | ⟨1, _⟩ => fun h => absurd rfl h
  match j with
  | ⟨0, _⟩ =>
    exact (concatenate_apply_piece (t := S1048576x3) (1 : Fin 2)
      ([⟨S1048576x1, PoseTerm.asCol a⟩, ⟨S1048576x1, PoseTerm.asCol b⟩, ⟨S1048576x1, PoseTerm.asCol c⟩] :
        List ((s : Shape) × (s.Idx → Ideal .f32)))
      concatenates_S1048576x1_S1048576x1_S1048576x1_S1048576x3_d1 (ix2 n (0 : Fin 3)) 0 (by show (0 : ℕ) < 3; omega) S1048576x1
      (PoseTerm.asCol a) rfl rfl 0 rfl (ix2 n (0 : Fin 1)) (hi 0) rfl).trans (asCol_entry a n 0)
  | ⟨1, _⟩ =>
    exact (concatenate_apply_piece (t := S1048576x3) (1 : Fin 2)
      ([⟨S1048576x1, PoseTerm.asCol a⟩, ⟨S1048576x1, PoseTerm.asCol b⟩, ⟨S1048576x1, PoseTerm.asCol c⟩] :
        List ((s : Shape) × (s.Idx → Ideal .f32)))
      concatenates_S1048576x1_S1048576x1_S1048576x1_S1048576x3_d1 (ix2 n (1 : Fin 3)) 1 (by show (1 : ℕ) < 3; omega) S1048576x1
      (PoseTerm.asCol b) rfl rfl 1 rfl (ix2 n (0 : Fin 1)) (hi 1) rfl).trans (asCol_entry b n 0)
  | ⟨2, _⟩ =>
    exact (concatenate_apply_piece (t := S1048576x3) (1 : Fin 2)
      ([⟨S1048576x1, PoseTerm.asCol a⟩, ⟨S1048576x1, PoseTerm.asCol b⟩, ⟨S1048576x1, PoseTerm.asCol c⟩] :
        List ((s : Shape) × (s.Idx → Ideal .f32)))
      concatenates_S1048576x1_S1048576x1_S1048576x1_S1048576x3_d1 (ix2 n (2 : Fin 3)) 2 (by show (2 : ℕ) < 3; omega) S1048576x1
      (PoseTerm.asCol c) rfl rfl 2 rfl (ix2 n (0 : Fin 1)) (hi 2) rfl).trans (asCol_entry c n 0)

/-- An [N,3] array laid out as an [N,1,3] slab reads the array at the outer coordinates. -/
theorem asSlab_entry (v : FVec Ideal S1048576x3 .f32) (n : Fin 1048576) (a : Fin 1) (j : Fin 3) :
    PoseTerm.asSlab (F := Ideal) v (ix3 n a j) = v (ix2 n j) := by
  unfold PoseTerm.asSlab
  exact broadcastInDim_apply _ _ v _ (ix2 n j) (fun c => match c with | ⟨0, _⟩ => rfl | ⟨1, _⟩ => rfl)

/-! ## K, the skew matrices -/

/-- K at (n,i,j) is the skew matrix of row n of r. Row i is piece i of the concatenation along axis 1, a slab of unit
    extent there; the slab is a row of three vectors; a negated column is minus the column. -/
theorem skew_entry (r : FVec Ideal S1048576x3 .f32) (n : Fin 1048576) (i j : Fin 3) :
    PoseTerm.skewM (F := Ideal) r (ix3 n i j) = Cert.Pose.skew (fun l => r (ix2 n l)) i j := by
  unfold PoseTerm.skewM
  have hi : ∀ (q : Fin 3) (e : Fin S1048576x1x3.rank), e.cast (rfl : S1048576x1x3.rank = S1048576x3x3.rank) ≠ (1 : Fin 3) →
      ((ix3 n (0 : Fin 1) j : S1048576x1x3.Idx) e).val = ((ix3 n q j : S1048576x3x3.Idx) (e.cast rfl)).val := fun q e =>
    match e with
    | ⟨0, _⟩ => fun _ => rfl
    | ⟨1, _⟩ => fun h => absurd rfl h
    | ⟨2, _⟩ => fun _ => rfl
  have hneg : ∀ v : FVec Ideal S1048576 .f32, Host.negf v (ix1 n) = -(v (ix1 n)) := fun _ => rfl
  match i with
  | ⟨0, _⟩ =>
    refine (concatenate_apply_piece (t := S1048576x3x3) (1 : Fin 3)
      ([⟨S1048576x1x3, PoseTerm.asSlab (PoseTerm.row3 PoseTerm.zeroN (Host.negf (PoseTerm.col2 r)) (PoseTerm.col1 r))⟩,
        ⟨S1048576x1x3, PoseTerm.asSlab (PoseTerm.row3 (PoseTerm.col2 r) PoseTerm.zeroN (Host.negf (PoseTerm.col0 r)))⟩,
        ⟨S1048576x1x3, PoseTerm.asSlab (PoseTerm.row3 (Host.negf (PoseTerm.col1 r)) (PoseTerm.col0 r) PoseTerm.zeroN)⟩] :
        List ((s : Shape) × (s.Idx → Ideal .f32)))
      concatenates_S1048576x1x3_S1048576x1x3_S1048576x1x3_S1048576x3x3_d1 (ix3 n (0 : Fin 3) j) 0
      (by show (0 : ℕ) < 3; omega) S1048576x1x3 _ rfl rfl 0 rfl (ix3 n (0 : Fin 1) j) (hi 0) rfl).trans ?_
    rw [asSlab_entry, row3_entry, hneg, zeroN_entry, col1_entry, col2_entry]
    match j with
    | ⟨0, _⟩ => rfl
    | ⟨1, _⟩ => rfl
    | ⟨2, _⟩ => rfl
  | ⟨1, _⟩ =>
    refine (concatenate_apply_piece (t := S1048576x3x3) (1 : Fin 3)
      ([⟨S1048576x1x3, PoseTerm.asSlab (PoseTerm.row3 PoseTerm.zeroN (Host.negf (PoseTerm.col2 r)) (PoseTerm.col1 r))⟩,
        ⟨S1048576x1x3, PoseTerm.asSlab (PoseTerm.row3 (PoseTerm.col2 r) PoseTerm.zeroN (Host.negf (PoseTerm.col0 r)))⟩,
        ⟨S1048576x1x3, PoseTerm.asSlab (PoseTerm.row3 (Host.negf (PoseTerm.col1 r)) (PoseTerm.col0 r) PoseTerm.zeroN)⟩] :
        List ((s : Shape) × (s.Idx → Ideal .f32)))
      concatenates_S1048576x1x3_S1048576x1x3_S1048576x1x3_S1048576x3x3_d1 (ix3 n (1 : Fin 3) j) 1
      (by show (1 : ℕ) < 3; omega) S1048576x1x3 _ rfl rfl 1 rfl (ix3 n (0 : Fin 1) j) (hi 1) rfl).trans ?_
    rw [asSlab_entry, row3_entry, hneg, zeroN_entry, col0_entry, col2_entry]
    match j with
    | ⟨0, _⟩ => rfl
    | ⟨1, _⟩ => rfl
    | ⟨2, _⟩ => rfl
  | ⟨2, _⟩ =>
    refine (concatenate_apply_piece (t := S1048576x3x3) (1 : Fin 3)
      ([⟨S1048576x1x3, PoseTerm.asSlab (PoseTerm.row3 PoseTerm.zeroN (Host.negf (PoseTerm.col2 r)) (PoseTerm.col1 r))⟩,
        ⟨S1048576x1x3, PoseTerm.asSlab (PoseTerm.row3 (PoseTerm.col2 r) PoseTerm.zeroN (Host.negf (PoseTerm.col0 r)))⟩,
        ⟨S1048576x1x3, PoseTerm.asSlab (PoseTerm.row3 (Host.negf (PoseTerm.col1 r)) (PoseTerm.col0 r) PoseTerm.zeroN)⟩] :
        List ((s : Shape) × (s.Idx → Ideal .f32)))
      concatenates_S1048576x1x3_S1048576x1x3_S1048576x1x3_S1048576x3x3_d1 (ix3 n (2 : Fin 3) j) 2
      (by show (2 : ℕ) < 3; omega) S1048576x1x3 _ rfl rfl 2 rfl (ix3 n (0 : Fin 1) j) (hi 2) rfl).trans ?_
    rw [asSlab_entry, row3_entry, hneg, zeroN_entry, col0_entry, col1_entry]
    match j with
    | ⟨0, _⟩ => rfl
    | ⟨1, _⟩ => rfl
    | ⟨2, _⟩ => rfl

/-! ## θ -/

/-- The row sum's inserted index: over the result index n with the column coordinate k put back it is (n, k). -/
theorem lift_row (h : S1048576x3.Reduces [1] S1048576) (n : Fin 1048576) (k : Fin 3) :
    h.lift (ix1 n) k = ix2 n k := by
  funext c
  match c with
  | ⟨0, _⟩ => exact Fin.ext rfl
  | ⟨1, _⟩ => exact Fin.ext rfl

/-- θ at n: the host's row sum is the literal zero plus the three squares, the square root and the ε splat are read
    pointwise. -/
theorem thetaN_entry (r : FVec Ideal S1048576x3 .f32) (n : Fin 1048576) :
    PoseTerm.thetaN (F := Ideal) r (ix1 n) = Cert.Pose.angle (Cert.Pose.lenSqR (fun l => r (ix2 n l))) := by
  have hred : S1048576x3.Reduces [1] S1048576 := by decide
  have hsum : Host.reduceAdd (mulf r r) (constant (F := Ideal) S_ .f32 0x00000000#32) reducesTo_S1048576x3_S1048576_d1 h_S_ (ix1 n)
      = Cert.Pose.lenSqR (fun l => r (ix2 n l)) := by
    rw [hostReduceAdd_apply]
    refine (Ideal.hostReduceAdd_single reducesTo_S1048576x3_S1048576_d1 hred _ _ _).trans ?_
    show Cert.Pose.zero + ∑ k : Fin 3, mulf r r (hred.lift (ix1 n) k) = Cert.Pose.zero + ∑ l : Fin 3, r (ix2 n l) * r (ix2 n l)
    refine congrArg (Cert.Pose.zero + ·) (Finset.sum_congr rfl fun k _ => ?_)
    rw [lift_row]
    rfl
  have hsqrt : ∀ X : FVec Ideal S1048576 .f32, Host.sqrt X (ix1 n) = Ideal.sqrt (X (ix1 n)) := fun _ => rfl
  unfold PoseTerm.thetaN
  rw [addf_apply, broadcastInDim_scalar_apply, hsqrt, hsum, constant_apply]
  rfl

/-- θ at (n,0,0). -/
theorem theta_entry (r : FVec Ideal S1048576x3 .f32) (n : Fin 1048576) (a b : Fin 1) :
    PoseTerm.theta3 (F := Ideal) r (ix3 n a b) = Cert.Pose.angle (Cert.Pose.lenSqR (fun l => r (ix2 n l))) := by
  unfold PoseTerm.theta3
  refine (broadcastInDim_apply _ _ _ _ (ix1 n) (fun c => match c with | ⟨0, _⟩ => rfl)).trans ?_
  exact thetaN_entry r n

/-! ## The identity -/

/-- The two iotas compared at (i, j): the row coordinate plus the zero word against the column coordinate, the bit
    "i = j" over the nine entries. -/
theorem eye_bit (i j : Fin 3) :
    cmpi .eq (addi (iotaInDim S3x3 32 0) (broadcastInDim S3x3 ![] bcast_S_S3x3 (constantI S_ 32 0#32))) (iotaInDim S3x3 32 1)
        (ix2 i j) = if i = j then 1#1 else 0#1 := by
  fin_cases i <;> fin_cases j <;> rfl

/-- The identity at (i, j): the comparison bit read as an unsigned integer is 1 on the diagonal and 0 off it. -/
theorem eye_entry (i j : Fin 3) : PoseTerm.eyeM (F := Ideal) (ix2 i j) = Cert.Pose.eye i j := by
  unfold PoseTerm.eyeM
  have hconv : ∀ X : IVec S3x3 1, uitofp (F := Ideal) .f32 X (ix2 i j) = (((X (ix2 i j)).toNat : ℝ) : EReal) := fun _ => rfl
  rw [hconv, eye_bit]
  unfold Cert.Pose.eye
  by_cases h : i = j
  · rw [if_pos h, if_pos h]; simp
  · rw [if_neg h, if_neg h]; simp

/-! ## The batched product K·K -/

/-- The left operand's batch coordinate is the result's. -/
theorem kk_lhs_0 (j : S1048576x3x3.Idx) (k : dot_S1048576x3x3_S1048576x3x3_S1048576x3x3_2_1_1_2_0_0.contr.Idx) :
    (dot_S1048576x3x3_S1048576x3x3_S1048576x3x3_2_1_1_2_0_0.lhsIdx j k 0).val = (j 0).val := rfl
/-- The left operand's row coordinate is the result's. -/
theorem kk_lhs_1 (j : S1048576x3x3.Idx) (k : dot_S1048576x3x3_S1048576x3x3_S1048576x3x3_2_1_1_2_0_0.contr.Idx) :
    (dot_S1048576x3x3_S1048576x3x3_S1048576x3x3_2_1_1_2_0_0.lhsIdx j k 1).val = (j 1).val := rfl
/-- The left operand's column coordinate is the contracted one. -/
theorem kk_lhs_2 (j : S1048576x3x3.Idx) (k : dot_S1048576x3x3_S1048576x3x3_S1048576x3x3_2_1_1_2_0_0.contr.Idx) :
    (dot_S1048576x3x3_S1048576x3x3_S1048576x3x3_2_1_1_2_0_0.lhsIdx j k 2).val = (k ⟨0, by decide⟩).val :=
  dot_S1048576x3x3_S1048576x3x3_S1048576x3x3_2_1_1_2_0_0.lhsIdx_val_of_single rfl j k
/-- The right operand's batch coordinate is the result's. -/
theorem kk_rhs_0 (j : S1048576x3x3.Idx) (k : dot_S1048576x3x3_S1048576x3x3_S1048576x3x3_2_1_1_2_0_0.contr.Idx) :
    (dot_S1048576x3x3_S1048576x3x3_S1048576x3x3_2_1_1_2_0_0.rhsIdx j k 0).val = (j 0).val := rfl
/-- The right operand's row coordinate is the contracted one. -/
theorem kk_rhs_1 (j : S1048576x3x3.Idx) (k : dot_S1048576x3x3_S1048576x3x3_S1048576x3x3_2_1_1_2_0_0.contr.Idx) :
    (dot_S1048576x3x3_S1048576x3x3_S1048576x3x3_2_1_1_2_0_0.rhsIdx j k 1).val = (k ⟨0, by decide⟩).val :=
  dot_S1048576x3x3_S1048576x3x3_S1048576x3x3_2_1_1_2_0_0.rhsIdx_val_of_single rfl j k
/-- The right operand's column coordinate is the result's. -/
theorem kk_rhs_2 (j : S1048576x3x3.Idx) (k : dot_S1048576x3x3_S1048576x3x3_S1048576x3x3_2_1_1_2_0_0.contr.Idx) :
    (dot_S1048576x3x3_S1048576x3x3_S1048576x3x3_2_1_1_2_0_0.rhsIdx j k 2).val = (j 2).val := rfl

/-- The batched product of an [N,3,3] array with itself at (n, i, j): the three-term sum over the contracted
    coordinate, the batch coordinate n on both operands. The contraction index set is re-indexed by its one coordinate. -/
theorem kk_apply (K : FVec Ideal S1048576x3x3 .f32) (n : Fin 1048576) (i j : Fin 3) :
    Host.dotGeneral dot_S1048576x3x3_S1048576x3x3_S1048576x3x3_2_1_1_2_0_0 none K K (ix3 n i j) = ∑ l : Fin 3, K (ix3 n i l) * K (ix3 n l j) := by
  have hL : ∀ l : Fin 3, dot_S1048576x3x3_S1048576x3x3_S1048576x3x3_2_1_1_2_0_0.lhsIdx (ix3 n i j) ((contrEquiv1 dot_S1048576x3x3_S1048576x3x3_S1048576x3x3_2_1_1_2_0_0 3 rfl rfl).symm l) = ix3 n i l := fun l => by
    funext a
    match a with
    | ⟨0, _⟩ => exact Fin.ext (kk_lhs_0 _ _)
    | ⟨1, _⟩ => exact Fin.ext (kk_lhs_1 _ _)
    | ⟨2, _⟩ => exact Fin.ext ((kk_lhs_2 _ _).trans (contrEquiv1_symm_val _ 3 rfl rfl l))
  have hR : ∀ l : Fin 3, dot_S1048576x3x3_S1048576x3x3_S1048576x3x3_2_1_1_2_0_0.rhsIdx (ix3 n i j) ((contrEquiv1 dot_S1048576x3x3_S1048576x3x3_S1048576x3x3_2_1_1_2_0_0 3 rfl rfl).symm l) = ix3 n l j := fun l => by
    funext a
    match a with
    | ⟨0, _⟩ => exact Fin.ext (kk_rhs_0 _ _)
    | ⟨1, _⟩ => exact Fin.ext ((kk_rhs_1 _ _).trans (contrEquiv1_symm_val _ 3 rfl rfl l))
    | ⟨2, _⟩ => exact Fin.ext (kk_rhs_2 _ _)
  refine (Ideal.dotGeneral_apply _ _ _ K K _).trans ?_
  rw [← Equiv.sum_comp (contrEquiv1 dot_S1048576x3x3_S1048576x3x3_S1048576x3x3_2_1_1_2_0_0 3 rfl rfl).symm]
  exact Finset.sum_congr rfl fun l _ => by rw [hL, hR]

/-! ## R -/

/-- R at (n,i,j). The identity is read through its two broadcasts; the two coefficients are [N,1,1] arrays spread over
    [N,3,3], read at (n,0,0), where the sine, the cosine and the quotient act pointwise on θ; K and K·K are read by the
    lemmas above. The literal one is the spec's. -/
theorem rot_entry (r : FVec Ideal S1048576x3 .f32) (n : Fin 1048576) (i j : Fin 3) :
    PoseTerm.rotM (F := Ideal) r (ix3 n i j) = Cert.Pose.rotR (fun l => r (ix2 n l)) i j := by
  have hE : broadcastInDim S1048576x3x3 ![0, 1, 2] bcast_S1x3x3_S1048576x3x3_0_1_2
      (broadcastInDim S1x3x3 ![1, 2] bcast_S3x3_S1x3x3_1_2 (PoseTerm.eyeM (F := Ideal))) (ix3 n i j) = Cert.Pose.eye i j := by
    refine (broadcastInDim_apply _ _ _ _ (ix3 (0 : Fin 1) i j)
      (fun c => match c with | ⟨0, _⟩ => rfl | ⟨1, _⟩ => rfl | ⟨2, _⟩ => rfl)).trans ?_
    refine (broadcastInDim_apply _ _ _ _ (ix2 i j) (fun c => match c with | ⟨0, _⟩ => rfl | ⟨1, _⟩ => rfl)).trans ?_
    exact eye_entry i j
  have hspread : ∀ v : FVec Ideal S1048576x1x1 .f32,
      PoseTerm.spread (F := Ideal) v (ix3 n i j) = v (ix3 n (0 : Fin 1) (0 : Fin 1)) := fun v => by
    unfold PoseTerm.spread
    exact broadcastInDim_apply _ _ v _ (ix3 n (0 : Fin 1) (0 : Fin 1))
      (fun c => match c with | ⟨0, _⟩ => rfl | ⟨1, _⟩ => rfl | ⟨2, _⟩ => rfl)
  have hsin : ∀ (x : FVec Ideal S1048576x1x1 .f32) (q : S1048576x1x1.Idx), Host.sin x q = Ideal.sin (x q) := fun _ _ => rfl
  have hcos : ∀ (x : FVec Ideal S1048576x1x1 .f32) (q : S1048576x1x1.Idx), Host.cos x q = Ideal.cos (x q) := fun _ _ => rfl
  have hθ := theta_entry r n (0 : Fin 1) (0 : Fin 1)
  have hKK := kk_apply (PoseTerm.skewM (F := Ideal) r) n i j
  unfold PoseTerm.rotM
  rw [addf_apply, addf_apply, hE, mulf_apply, mulf_apply, hspread, hspread, hostDivf_apply, hostDivf_apply, hsin, subf_apply,
    hcos, mulf_apply, broadcastInDim_scalar_apply, constant_apply, hθ, hKK, skew_entry]
  simp only [skew_entry]
  rfl

end Cert.ReferenceIdeal.PoseRead
-- ==== Proof.RefOut.lean ====
/-
  The reference's result read at an entry, given the entries of its rotation array.

  The camera array is the rotation array with t appended as a fourth column and the literal row (0, 0, 0, 1) as a
  fourth row: an entry of it is found by locating its row and its column among the joined pieces, which is how
  `Cert.Pose.camR` branches.  The result is the batched product of the camera array with the poses: at (n, i, k) the
  sum over the contracted coordinate l of camera (n, i, l) times pose (n, l, k), which is `Cert.Pose.outR`.
-/
import proofs.«146500_j21268678050229_1_alg».proof.Proof.RefTerm
import proofs.«146500_j21268678050229_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.PoseOut
open Cert.ReferenceIdeal Cert.ReferenceIdeal.Gen Idealize.ShloMosaic Idealize.ShloMosaic.ValueIdx

/-! ## The camera array -/

/-- The literal vector (0, 0, 0, 1) at column j: the word at row-major position j of the table is the word
    `Cert.Pose.bottomRow` names there. -/
theorem bottom_entry (j : Fin 4) :
    (FloatOps.ofBits (F := Ideal) .f32 (lit0 (S4.rowMajor (ix1 j))) : Ideal .f32) = Cert.Pose.bottomRow j := by
  fin_cases j <;> rfl

/-- The camera matrix at (n,i,j). -/
theorem cam_entry (r t : FVec Ideal S1048576x3 .f32)
    (hrot : ∀ (n : Fin 1048576) (i j : Fin 3), PoseTerm.rotM (F := Ideal) r (ix3 n i j) = Cert.Pose.rotR (fun l => r (ix2 n l)) i j)
    (n : Fin 1048576) (i j : Fin 4) :
    PoseTerm.camM (F := Ideal) r t (ix3 n i j) = Cert.Pose.camR (fun l => r (ix2 n l)) (fun l => t (ix2 n l)) i j := by
  unfold PoseTerm.camM Cert.Pose.camR
  by_cases hi : i.val < 3
  · -- a row below 3 lies in the [N,3,4] piece, at the same coordinates
    rw [dif_pos hi]
    rw [concatenate_pair_apply_left (t := S1048576x4x4) (s₁ := S1048576x3x4) (s₂ := S1048576x1x4) _ _ _ _ (ix3 n i j) rfl
      (ix3 n (⟨i.val, hi⟩ : Fin 3) j)
      (by intro b; match b with | ⟨0, _⟩ => rfl | ⟨1, _⟩ => rfl | ⟨2, _⟩ => rfl)]
    by_cases hj : j.val < 3
    · -- a column below 3 lies in the rotation array, at the same coordinates
      rw [dif_pos hj]
      rw [concatenate_pair_apply_left (t := S1048576x3x4) (s₁ := S1048576x3x3) (s₂ := S1048576x3x1) _ _ _ _
        (ix3 n (⟨i.val, hi⟩ : Fin 3) j) rfl
        (ix3 n (⟨i.val, hi⟩ : Fin 3) (⟨j.val, hj⟩ : Fin 3))
        (by intro b; match b with | ⟨0, _⟩ => rfl | ⟨1, _⟩ => rfl | ⟨2, _⟩ => rfl)]
      exact hrot n _ _
    · -- column 3 is the one column of t laid out [N,3,1], which reads t at (n, i)
      rw [dif_neg hj]
      rw [concatenate_pair_apply_right (t := S1048576x3x4) (s₁ := S1048576x3x3) (s₂ := S1048576x3x1) _ _ _ _
        (ix3 n (⟨i.val, hi⟩ : Fin 3) j) rfl rfl
        (ix3 n (⟨i.val, hi⟩ : Fin 3) (0 : Fin 1))
        (by intro b hb; match b with | ⟨0, _⟩ => rfl | ⟨1, _⟩ => rfl | ⟨2, _⟩ => exact absurd rfl hb)
        (by have := j.isLt; show 0 + 3 = j.val; omega)]
      rw [broadcastInDim_apply _ _ _ _ (ix2 n (⟨i.val, hi⟩ : Fin 3))
        (by intro a; match a with | ⟨0, _⟩ => rfl | ⟨1, _⟩ => rfl)]
  · -- row 3 is the one row of the [N,1,4] piece: the literal vector spread over the batch, read at column j
    rw [dif_neg hi]
    rw [concatenate_pair_apply_right (t := S1048576x4x4) (s₁ := S1048576x3x4) (s₂ := S1048576x1x4) _ _ _ _
      (ix3 n i j) rfl rfl
      (ix3 n (0 : Fin 1) j)
      (by intro b hb; match b with | ⟨0, _⟩ => rfl | ⟨1, _⟩ => exact absurd rfl hb | ⟨2, _⟩ => rfl)
      (by have := i.isLt; show 0 + 3 = i.val; omega)]
    rw [broadcastInDim_apply _ _ _ _ (ix3 (0 : Fin 1) (0 : Fin 1) j)
      (by intro a; match a with | ⟨0, _⟩ => rfl | ⟨1, _⟩ => rfl | ⟨2, _⟩ => rfl)]
    rw [broadcastInDim_apply _ _ _ _ (ix1 j)
      (by intro a; match a with | ⟨0, _⟩ => rfl)]
    exact bottom_entry j

/-! ## The batched product

The product's record has batch axis 0 on both sides, contracts axis 2 of the left operand with axis 1 of the right,
and keeps axis 1 of the left and axis 2 of the right.  The six coordinates the two operands are read at, axis by axis. -/

/-- The product's dimension record. -/
abbrev prodDims : DotDims S1048576x4x4 S1048576x4x4 S1048576x4x4 :=
  dot_S1048576x4x4_S1048576x4x4_S1048576x4x4_2_1_1_2_0_0

/-- The left operand's batch coordinate is the result's. -/
theorem lhs_axis0 (j : S1048576x4x4.Idx) (q : prodDims.contr.Idx) : (prodDims.lhsIdx j q 0).val = (j 0).val := by
  simp [DotDims.lhsIdx, dot_S1048576x4x4_S1048576x4x4_S1048576x4x4_2_1_1_2_0_0]; rfl

/-- The left operand's row is the result's row. -/
theorem lhs_axis1 (j : S1048576x4x4.Idx) (q : prodDims.contr.Idx) : (prodDims.lhsIdx j q 1).val = (j 1).val := by
  simp [DotDims.lhsIdx, dot_S1048576x4x4_S1048576x4x4_S1048576x4x4_2_1_1_2_0_0]; rfl

/-- The left operand's column is the contracted coordinate. -/
theorem lhs_axis2 (j : S1048576x4x4.Idx) (q : prodDims.contr.Idx) :
    (prodDims.lhsIdx j q 2).val = (q ⟨0, by decide⟩).val :=
  prodDims.lhsIdx_val_of_single (cl := 2) rfl j q

/-- The right operand's batch coordinate is the result's. -/
theorem rhs_axis0 (j : S1048576x4x4.Idx) (q : prodDims.contr.Idx) : (prodDims.rhsIdx j q 0).val = (j 0).val := by
  simp [DotDims.rhsIdx, dot_S1048576x4x4_S1048576x4x4_S1048576x4x4_2_1_1_2_0_0]; rfl

/-- The right operand's row is the contracted coordinate. -/
theorem rhs_axis1 (j : S1048576x4x4.Idx) (q : prodDims.contr.Idx) :
    (prodDims.rhsIdx j q 1).val = (q ⟨0, by decide⟩).val :=
  prodDims.rhsIdx_val_of_single (cr := 1) rfl j q

/-- The right operand's column is the result's column. -/
theorem rhs_axis2 (j : S1048576x4x4.Idx) (q : prodDims.contr.Idx) : (prodDims.rhsIdx j q 2).val = (j 2).val := by
  simp [DotDims.rhsIdx, dot_S1048576x4x4_S1048576x4x4_S1048576x4x4_2_1_1_2_0_0]; rfl

/-- The contraction index is its one coordinate, a number below 4. -/
abbrev contr4 : prodDims.contr.Idx ≃ Fin 4 := contrEquiv1 prodDims 4 rfl rfl

/-- At result entry (n, i, k) and contracted coordinate l the left operand is read at (n, i, l). -/
theorem lhs_at (n : Fin 1048576) (i k l : Fin 4) : prodDims.lhsIdx (ix3 n i k) (contr4.symm l) = ix3 n i l := by
  funext ax; apply Fin.ext
  match ax with
  | ⟨0, _⟩ => exact lhs_axis0 _ _
  | ⟨1, _⟩ => exact lhs_axis1 _ _
  | ⟨2, _⟩ => exact (lhs_axis2 _ _).trans (contrEquiv1_symm_val prodDims 4 rfl rfl l)

/-- At result entry (n, i, k) and contracted coordinate l the right operand is read at (n, l, k). -/
theorem rhs_at (n : Fin 1048576) (i k l : Fin 4) : prodDims.rhsIdx (ix3 n i k) (contr4.symm l) = ix3 n l k := by
  funext ax; apply Fin.ext
  match ax with
  | ⟨0, _⟩ => exact rhs_axis0 _ _
  | ⟨1, _⟩ => exact (rhs_axis1 _ _).trans (contrEquiv1_symm_val prodDims 4 rfl rfl l)
  | ⟨2, _⟩ => exact rhs_axis2 _ _

/-- The result at (n,i,k). -/
theorem out_entry (p : FVec Ideal S1048576x4x4 .f32) (r t : FVec Ideal S1048576x3 .f32)
    (hrot : ∀ (n : Fin 1048576) (i j : Fin 3), PoseTerm.rotM (F := Ideal) r (ix3 n i j) = Cert.Pose.rotR (fun l => r (ix2 n l)) i j)
    (n : Fin 1048576) (i k : Fin 4) :
    PoseTerm.out (F := Ideal) p r t (ix3 n i k)
      = Cert.Pose.outR (fun j => r (ix2 n j)) (fun j => t (ix2 n j)) (fun a b => p (ix3 n a b)) i k := by
  unfold PoseTerm.out Cert.Pose.outR
  -- the host product at an entry is the sum over the contraction index of the operands' products
  show FloatOps.dotGeneral prodDims none _ (PoseTerm.camM r t) p (ix3 n i k) = _
  rw [Ideal.dotGeneral_apply, ← Equiv.sum_comp contr4.symm]
  refine Finset.sum_congr rfl fun l _ => ?_
  rw [lhs_at, rhs_at, cam_entry r t hrot]

end Cert.ReferenceIdeal.PoseOut

end
-- ==== Proof.Algebra.lean ====
/-
  The two spellings of the camera-pose product agree where the axis-angle vector is finite.

  With r real, r rᵀ − |r|² I and the square of the skew matrix are the same nine real numbers; a, b and the angle enter
  both spellings in the same places and are never opened.  The identity's entries and the skew matrix's zeros drop
  out because 1.0 and 0.0 denote 1 and 0 and x·0 = 0 holds for every extended real.  The four-term sum over the
  contracted index is the four products added from the left.
-/
import proofs.«146500_j21268678050229_1_alg».proof.Proof.Spec
import Idealize.ShloMosaic.PureOps.Ideal.Laws

noncomputable section

namespace Cert.Pose

open Idealize.ShloMosaic

/-- The literal 1.0 denotes 1. -/
theorem one_eq : one = 1 := by
  show Ideal.ofBits .f32 0x3F800000#32 = 1
  simp [Ideal.ofBits, Ideal.ieee, -EReal.coe_mul]; norm_num

/-- The literal 0.0 denotes 0. -/
theorem zero_eq : zero = 0 := Ideal.ofBits_zero_f32

/-- The two squared lengths are one number. -/
theorem lenSq_eq (r : Fin 3 → EReal) : lenSqR r = lenSqK r := by
  unfold lenSqR lenSqK
  rw [zero_eq, zero_add, Fin.sum_univ_three]

/-- The two camera matrices agree entry by entry where r is real: the diagonal of K² by arithmetic on the reals, the
    rest by commuting a product. -/
theorem cam_eq (r t : Fin 3 → EReal) (hr : ∀ j, ∃ x : ℝ, r j = (x : EReal)) (i j : Fin 4) :
    camK r t i j = camR r t i j := by
  obtain ⟨x0, h0⟩ := hr 0
  obtain ⟨x1, h1⟩ := hr 1
  obtain ⟨x2, h2⟩ := hr 2
  fin_cases i <;> fin_cases j <;>
    simp [camK, camR, rotR, eye, skew, skewSq, bottomRow, lenSq_eq, Fin.sum_univ_three, one_eq, zero_eq]
  · unfold lenSqK; rw [h0, h1, h2]; congr 2; norm_cast; ring
  · rw [mul_comm (r 1) (r 0)]
  · rw [mul_comm (r 2) (r 0)]
  · unfold lenSqK; rw [h0, h1, h2]; congr 2; norm_cast; ring
  · rw [mul_comm (r 2) (r 1)]
  · unfold lenSqK; rw [h0, h1, h2]; congr 2; norm_cast; ring

/-- Entry by entry the closed form and Rodrigues' formula give one product. -/
theorem out_eq (r t : Fin 3 → EReal) (p : Fin 4 → Fin 4 → EReal) (hr : ∀ j, ∃ x : ℝ, r j = (x : EReal)) (i k : Fin 4) :
    outK r t p i k = outR r t p i k := by
  unfold outK outR
  rw [Fin.sum_univ_four]
  simp only [cam_eq r t hr]

end Cert.Pose

end
-- ==== Proof.Finite.lean ====
/-
  From the precondition "every float input is finite" to: every entry of the axis-angle input is a real number.

  The printed predicate is the conjunction (by `and` on one-bit words) of three `all`-reductions, one per input array;
  each reduces, over all axes and from the literal true, the elementwise comparison `|x| < +inf`. Where the predicate
  is all ones, the middle reduction is one, so every element of its operand is one; at an entry `x` of the second
  array that element says `max x (-x) < ⊤` over the extended reals, which fails at `⊥` and at `⊤`: `x` is real.
-/
import proofs.«146500_j21268678050229_1_alg».proof.Pre_finite_inputs
import proofs.«146500_j21268678050229_1_alg».proof.Proof.Gen.Pre_finite_inputs
import Idealize.ShloMosaic.Lib.ValueIdx
import Idealize.ShloMosaic.Lib.ReduceAll
import Idealize.ShloMosaic.PureOps.Ideal.Laws

namespace Cert.Pose.Finite
open Idealize.ShloMosaic
variable [Cert.Pre_finite_inputs.Facts]

/-- Where the printed predicate is all ones, every entry of the second array is real. -/
theorem arg1_real (a0 : FVec Ideal Cert.Pre_finite_inputs.S1048576x4x4 .f32) (a1 a2 : FVec Ideal Cert.Pre_finite_inputs.S1048576x3 .f32)
    (h : Cert.Pre_finite_inputs.fn (F := Ideal) a0 a1 a2 = (fun _ => 1#1)) (idx : Cert.Pre_finite_inputs.S1048576x3.Idx) :
    ∃ x : ℝ, a1 idx = ((x : ℝ) : EReal) := by
  -- the predicate's one word, read at the only index of its rank-0 result
  have h0 := congrFun h ValueIdx.ix0
  dsimp only [Cert.Pre_finite_inputs.fn, andi] at h0
  -- an `and` of one-bit words is one only where both are: keep the second array's conjunct
  obtain ⟨h01, _⟩ := IntOp.andi_eq_one.1 h0
  obtain ⟨_, h1⟩ := IntOp.andi_eq_one.1 h01
  -- a reduction by `and` over all axes that is one had a one at every operand index
  haveI : Subsingleton Cert.Pre_finite_inputs.S_.Idx := ⟨fun a b => funext fun d => d.elim0⟩
  have hi := Host.reduce_andi_all _ _ _ _ _ h1 idx
  -- the operand at `idx`: the comparison of `|a1 idx|` with the broadcast scalar literal
  dsimp only [cmpf, Host.absf, broadcastInDim, constant] at hi
  -- the literal 0x7F800000 denotes `+inf`
  have hT : Ideal.ofBits .f32 0x7F800000#32 = (⊤ : EReal) := by simp [Ideal.ofBits, Ideal.ieee]
  -- over the extended reals: `max x (-x) < ⊤`
  rw [Ideal.hostAbsf_def, Ideal.cmpf_def, Ideal.absf_def, Ideal.ofBits_def, hT] at hi
  generalize a1 idx = x at hi ⊢
  -- at `⊥` and at `⊤` the maximum is `⊤`, which is not below `⊤`; a real entry is its own witness
  induction x using EReal.rec with
  | bot => simp [Ideal.cmp] at hi
  | coe r => exact ⟨r, rfl⟩
  | top => simp [Ideal.cmp] at hi

end Cert.Pose.Finite
-- ==== Proof.lean ====
/-
  The camera-pose kernel against its reference.

  Each of the 2²⁰ rows carries an axis-angle vector r, a translation t and a 4×4 pose p; both programs return
  [R(r) | t; 0 0 0 1] · p with R the Rodrigues rotation for the angle |r| + ε.  The kernel works on blocks of 16384
  rows with the row number moved to the last axis, uses K² = r rᵀ − |r|² I for the square of the skew matrix and adds
  the four products of each entry one after the other; the reference builds K, squares it by a batched product, and
  ends in a batched product with p.

  The frames of the two kernel programs are the generated ones; the reference's frame is its run as a straight line
  of host operations (Proof/RefRun.lean, Proof/RefResult.lean).  There is no rewrite to justify between the kernel
  and its idealization.  For the equality of results: the kernel's result array is one function `G` of the
  arguments (Proof/KernelBody.lean for a block, Proof/KernelArray.lean for the array); the reference's composed term
  read at an entry (Proof/RefRot.lean, Proof/RefOut.lean) is Rodrigues' formula term by term; and the two agree
  because r is finite under the precondition (Proof/Finite.lean, Proof/Algebra.lean).
-/
import proofs.«146500_j21268678050229_1_alg».proof.Defs
import proofs.«146500_j21268678050229_1_alg».proof.Proof.Gen.Kernel
import proofs.«146500_j21268678050229_1_alg».proof.Proof.Gen.Kernel.Skeleton
import proofs.«146500_j21268678050229_1_alg».proof.Proof.Gen.Kernel.Launch
import proofs.«146500_j21268678050229_1_alg».proof.Proof.Gen.Kernel.Points
import proofs.«146500_j21268678050229_1_alg».proof.Proof.Gen.Kernel.Frame
import proofs.«146500_j21268678050229_1_alg».proof.Proof.Gen.KernelIdeal
import proofs.«146500_j21268678050229_1_alg».proof.Proof.Gen.KernelIdeal.Skeleton
import proofs.«146500_j21268678050229_1_alg».proof.Proof.Gen.KernelIdeal.Launch
import proofs.«146500_j21268678050229_1_alg».proof.Proof.Gen.KernelIdeal.Points
import proofs.«146500_j21268678050229_1_alg».proof.Proof.Gen.KernelIdeal.Frame
import proofs.«146500_j21268678050229_1_alg».proof.Proof.Gen.ReferenceIdeal
import proofs.«146500_j21268678050229_1_alg».proof.Proof.Gen.Pre_finite_inputs
import proofs.«146500_j21268678050229_1_alg».proof.Proof.KernelBody
import proofs.«146500_j21268678050229_1_alg».proof.Proof.KernelArray
import proofs.«146500_j21268678050229_1_alg».proof.Proof.RefResult
import proofs.«146500_j21268678050229_1_alg».proof.Proof.RefRot
import proofs.«146500_j21268678050229_1_alg».proof.Proof.RefOut
import proofs.«146500_j21268678050229_1_alg».proof.Proof.Algebra
import proofs.«146500_j21268678050229_1_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame: its run with the result forgotten. -/
theorem frame_ri : Cert.frame_ReferenceIdeal := fun m ρ _ =>
  (θ_run Cert.ReferenceIdeal.defs _ _).mono (fun _ h c => (h c).2) (Cert.ReferenceIdeal.PoseRun.run (F := Ideal) m ρ)

/-- The idealization rewrote nothing. -/
theorem preserves : Cert.preserves_Kernel_KernelIdeal := trivial

/-- The reference's composed term is the kernel's result function where the axis-angle array is finite: entry by
    entry Rodrigues' formula and the closed form agree. -/
theorem result_eq (p : FVec Ideal Cert.ReferenceIdeal.S1048576x4x4 .f32) (r t : FVec Ideal Cert.ReferenceIdeal.S1048576x3 .f32)
    (hr : ∀ idx, ∃ x : ℝ, r idx = ((x : ℝ) : EReal)) :
    Cert.ReferenceIdeal.PoseTerm.out (F := Ideal) p r t = Cert.KernelIdeal.PoseArray.G p r t := by
  funext idx
  obtain ⟨N, i, k, rfl⟩ : ∃ (N : Fin 1048576) (i k : Fin 4), idx = ix3 N i k := ⟨idx 0, idx 1, idx 2, eq_ix3 idx⟩
  rw [Cert.ReferenceIdeal.PoseOut.out_entry p r t (Cert.ReferenceIdeal.PoseRead.rot_entry r) N i k,
    Cert.KernelIdeal.PoseArray.G_apply]
  exact (Cert.Pose.out_eq _ _ _ (fun j => hr (ix2 N j)) i k).symm

/-- Both idealized programs run, and end with equal results. -/
theorem algebraic : Cert.algebraic_KernelIdeal_ReferenceIdeal := by
  intro m ρ m' ρ' hpre hagree
  refine ⟨fun c => Cert.KernelIdeal.PoseArray.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.PoseArray.run m ρ Cert.KernelIdeal.PoseBody.body_entry, ?_⟩
  refine (θ_run Cert.ReferenceIdeal.defs _ _).mono (fun _ h c => ⟨(h c).1.trans ?_, (h c).2⟩)
    (Cert.ReferenceIdeal.PoseRun.run (F := Ideal) m' ρ')
  rw [(hagree c).1, (hagree c).2.1, (hagree c).2.2]
  exact result_eq _ _ _ (fun idx => Cert.Pose.Finite.arg1_real _ _ _ (hpre c) idx)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
